-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x1 .f32) (main_arg3 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S1x11008 .f32 := Host.absf main_arg3
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S8192x4096 : Shape := ⟨2, ![8192, 4096]⟩
abbrev S8192x11008 : Shape := ⟨2, ![8192, 11008]⟩
abbrev S2048x256 : Shape := ⟨2, ![2048, 256]⟩
abbrev S2304x256 : Shape := ⟨2, ![2304, 256]⟩
abbrev S2304x1 : Shape := ⟨2, ![2304, 1]⟩
abbrev S1x2304 : Shape := ⟨2, ![1, 2304]⟩
abbrev S2048x2304 : Shape := ⟨2, ![2048, 2304]⟩
abbrev S4x2048x11008 : Shape := ⟨3, ![4, 2048, 11008]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S1x11008, .f32⟩
  | .hbm, ⟨4, _⟩ => ⟨S8192x4096, .f32⟩
  | .hbm, ⟨5, _⟩ => ⟨S8192x11008, .f32⟩
  | .hbm, ⟨6, _⟩ => ⟨S4x2048x11008, .f32⟩
  | .local _ .vmem, ⟨0, _⟩ => ⟨S2048x256, .f32⟩
  | .local _ .vmem, ⟨1, _⟩ => ⟨S2048x256, .f32⟩
  | .local _ .vmem, ⟨2, _⟩ => ⟨S2304x256, .f32⟩
  | .local _ .vmem, ⟨3, _⟩ => ⟨S2304x256, .f32⟩
  | .local _ .vmem, ⟨4, _⟩ => ⟨S2304x1, .f32⟩
  | .local _ .vmem, ⟨5, _⟩ => ⟨S2304x1, .f32⟩
  | .local _ .vmem, ⟨6, _⟩ => ⟨S1x2304, .f32⟩
  | .local _ .vmem, ⟨7, _⟩ => ⟨S1x2304, .f32⟩
  | .local _ .vmem, ⟨8, _⟩ => ⟨S2048x2304, .f32⟩
  | .local _ .vmem, ⟨9, _⟩ => ⟨S2048x2304, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 5, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S2048x2304_S2048x2304_0_0 : ∀ a, (![0, 0] : Fin 2 → Nat) a + S2048x2304.size a ≤ S2048x2304.size a
  h_S2048x2304 : 0 < S2048x2304.numel
  inb_S2304x256_S2304x256_0_0 : ∀ a, (![0, 0] : Fin 2 → Nat) a + S2304x256.size a ≤ S2304x256.size a
  h_S2304x256 : 0 < S2304x256.numel
  inb_S2304x1_S2304x1_0_0 : ∀ a, (![0, 0] : Fin 2 → Nat) a + S2304x1.size a ≤ S2304x1.size a
  h_S2304x1 : 0 < S2304x1.numel
  broadcasts_S2304x1_S2304x256 : S2304x1.Broadcasts S2304x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x2304_S2048x2304 : S2048x2304.ShapeCasts S2048x2304
  inb_S1x2304_S1x2304_0_0 : ∀ a, (![0, 0] : Fin 2 → Nat) a + S1x2304.size a ≤ S1x2304.size a
  h_S1x2304 : 0 < S1x2304.numel
  broadcasts_S1x2304_S2048x2304 : S1x2304.Broadcasts S2048x2304
  shapeCasts_S8192x11008_S4x2048x11008 : S8192x11008.ShapeCasts S4x2048x11008
  dot_S2048x256_S2304x256_S2048x2304_1_1_0_0_n_n_wf : DotDims.WF S2048x256 S2304x256 S2048x2304 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2304x256.size a < S11008x4096.size a
  hwx0_1 : ∀ i : grid0.Coords, EltTy.bits .f32 = 32 ∨ (Rect.unit (s := S11008x4096) (fun a => cc0_transform_1 i a * S2304x256.size a) (fun a => (Pipeline.Clip.of (cc0_transform_1 i a) (S2304x256.size a) (S11008x4096.size a)).extent (S2304x256.size a)) fun a => Pipeline.Clip.inb (Pipeline.Clip.ok_of (hstart0_1 i a))).WholeWords (EltTy.packing .f32)
  hwxs0_1 : ∀ i : grid0.Coords, EltTy.bits .f32 = 32 ∨ (Rect.unit (s := S2304x256) (fun _ => 0) (fun a => (Pipeline.Clip.of (cc0_transform_1 i a) (S2304x256.size a) (S11008x4096.size a)).extent (S2304x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2304x1.size a < S11008x1.size a
  hwx0_2 : ∀ i : grid0.Coords, EltTy.bits .f32 = 32 ∨ (Rect.unit (s := S11008x1) (fun a => cc0_transform_2 i a * S2304x1.size a) (fun a => (Pipeline.Clip.of (cc0_transform_2 i a) (S2304x1.size a) (S11008x1.size a)).extent (S2304x1.size a)) fun a => Pipeline.Clip.inb (Pipeline.Clip.ok_of (hstart0_2 i a))).WholeWords (EltTy.packing .f32)
  hwxs0_2 : ∀ i : grid0.Coords, EltTy.bits .f32 = 32 ∨ (Rect.unit (s := S2304x1) (fun _ => 0) (fun a => (Pipeline.Clip.of (cc0_transform_2 i a) (S2304x1.size a) (S11008x1.size a)).extent (S2304x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2304.size a < S1x11008.size a
  hwx0_3 : ∀ i : grid0.Coords, EltTy.bits .f32 = 32 ∨ (Rect.unit (s := S1x11008) (fun a => cc0_transform_3 i a * S1x2304.size a) (fun a => (Pipeline.Clip.of (cc0_transform_3 i a) (S1x2304.size a) (S1x11008.size a)).extent (S1x2304.size a)) fun a => Pipeline.Clip.inb (Pipeline.Clip.ok_of (hstart0_3 i a))).WholeWords (EltTy.packing .f32)
  hwxs0_3 : ∀ i : grid0.Coords, EltTy.bits .f32 = 32 ∨ (Rect.unit (s := S1x2304) (fun _ => 0) (fun a => (Pipeline.Clip.of (cc0_transform_3 i a) (S1x2304.size a) (S1x11008.size a)).extent (S1x2304.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x2304.size a < S8192x11008.size a
  hwx0_4 : ∀ i : grid0.Coords, EltTy.bits .f32 = 32 ∨ (Rect.unit (s := S8192x11008) (fun a => cc0_transform_4 i a * S2048x2304.size a) (fun a => (Pipeline.Clip.of (cc0_transform_4 i a) (S2048x2304.size a) (S8192x11008.size a)).extent (S2048x2304.size a)) fun a => Pipeline.Clip.inb (Pipeline.Clip.ok_of (hstart0_4 i a))).WholeWords (EltTy.packing .f32)
  hwxs0_4 : ∀ i : grid0.Coords, EltTy.bits .f32 = 32 ∨ (Rect.unit (s := S2048x2304) (fun _ => 0) (fun a => (Pipeline.Clip.of (cc0_transform_4 i a) (S2048x2304.size a) (S8192x11008.size a)).extent (S2048x2304.size a)) fun a => (Nat.zero_add _).trans_le (Pipeline.Clip.extent_le (Pipeline.Clip.ok_of (hstart0_4 i a)))).WholeWords (EltTy.packing .f32)

variable [Facts₀]

def dot_S2048x256_S2304x256_S2048x2304_1_1_0_0_n_n : DotDims S2048x256 S2304x256 S2048x2304 where
  lhsContracting := [1]
  rhsContracting := [1]
  lhsNonContracting := [0]
  rhsNonContracting := [0]
  lhsBatch := []
  rhsBatch := []
  wf := dot_S2048x256_S2304x256_S2048x2304_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2304x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S2304x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S1x2304.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S2048x2304.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S8192x4096 : Shape := ⟨2, ![8192, 4096]⟩
abbrev S4096x11008 : Shape := ⟨2, ![4096, 11008]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S1x11008, .f32⟩
  | .hbm, ⟨4, _⟩ => ⟨S8192x4096, .f32⟩
  | .hbm, ⟨5, _⟩ => ⟨S11008x4096, .f32⟩
  | .hbm, ⟨6, _⟩ => ⟨S11008x4096, .f32⟩
  | .hbm, ⟨7, _⟩ => ⟨S4096x11008, .f32⟩
  | .hbm, ⟨8, _⟩ => ⟨S8192x11008, .f32⟩
  | .hbm, ⟨9, _⟩ => ⟨S4x2048x11008, .f32⟩
  | .hbm, ⟨10, _⟩ => ⟨S1x1x11008, .f32⟩
  | .hbm, ⟨11, _⟩ => ⟨S4x2048x11008, .f32⟩
  | .hbm, ⟨12, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S11008x1_S11008x4096_0_1 : S11008x1.BroadcastsInDim S11008x4096 (![0, 1] : Fin 2 → Fin S11008x4096.rank)
  transposes_S11008x4096_S4096x11008_1_0 : S11008x4096.Transposes [1, 0] S4096x11008
  shapeCasts_S8192x11008_S4x2048x11008 : S8192x11008.ShapeCasts S4x2048x11008
  bcast_S1x11008_S1x1x11008_1_2 : S1x11008.BroadcastsInDim S1x1x11008 (![1, 2] : Fin 2 → Fin S1x1x11008.rank)
  bcast_S1x1x11008_S4x2048x11008_0_1_2 : S1x1x11008.BroadcastsInDim S4x2048x11008 (![0, 1, 2] : Fin 3 → Fin S4x2048x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.BodyRunK.lean ====
import proofs.«169078_j8504035246563_1_alg».proof.Proof.Gen.Kernel.Skeleton
import Idealize.ShloMosaic.Lib.Pipeline.FrameBody
import Idealize.ShloMosaic.Lib.Pipeline.Value
import Idealize.ShloMosaic.Lib.Tactic

/-! # The kernel body's runs

The body of the dequantising matrix product, at one grid point, on whole staging buffers held at named contents: what
it leaves in the output block, in each of its three control cases. The contraction axis is the grid's last (sixteen
blocks): at its first block the output block is reset to zero before the block's product is added; at a middle block
the product is added to what the block held; at its last block the bias row is added after the product. Every load
and store of the body is of a whole buffer, so a load reads the buffer's contents and a store replaces them. -/

set_option synthInstance.maxSize 4096
set_option maxRecDepth 16384

noncomputable section
namespace Cert.Kernel.BodyRun
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ

/-! ## The two guards

The body branches on the contraction coordinate `k` twice, each time through the same chain of scalar operations: the
comparison `k = n` as a bit, widened to a word, compared against zero. On the sixteen values `k` takes the chain holds
exactly when `k = n`. -/

/-- The guard of the reset, as the body computes it from the contraction coordinate. -/
abbrev atFirst (k : Nat) : Prop :=
  (Scalar.cmpi .ne (Scalar.extui (Scalar.cmpi .eq (BitVec.ofNat 32 k) 0#32)) 0#32) = 1#1

/-- The guard of the bias addition, as the body computes it from the contraction coordinate. -/
abbrev atLast (k : Nat) : Prop :=
  (Scalar.cmpi .ne (Scalar.extui (Scalar.cmpi .eq (BitVec.ofNat 32 k) 15#32)) 0#32) = 1#1

/-- The reset's guard holds at the first block only. -/
theorem atFirst_iff : ∀ k : Fin 16, atFirst k.val ↔ k.val = 0 := by decide +kernel

/-- The bias addition's guard holds at the last block only. -/
theorem atLast_iff : ∀ k : Fin 16, atLast k.val ↔ k.val = 15 := by decide +kernel

/-- The zero offsets of a whole-buffer access, as the constant function. -/
theorem offsets_zero : (![0, 0] : Fin 2 → Nat) = fun _ => 0 := funext fun a => by fin_cases a <;> rfl

/-! ## What the buffers hold -/

/-- What the five staging buffers hold, as one separating conjunction (x block, weight block, scale column, bias row, output block). -/
def held (c : Dev nD) (a3 : Memref sig .tc .vmem S2048x256 .f32) (a4 : Memref sig .tc .vmem S2304x256 .f32) (a5 : Memref sig .tc .vmem S2304x1 .f32) (a6 : Memref sig .tc .vmem S1x2304 .f32) (a7 : Memref sig .tc .vmem S2048x2304 .f32)
    (X0 : Vec F S2048x256 .f32) (X1 : Vec F S2304x256 .f32) (X2 : Vec F S2304x1 .f32) (X3 : Vec F S1x2304 .f32) (X4 : Vec F S2048x2304 .f32) : sProp 𝕄 :=
  iprop(owns (c : Thread nD τ) a3 fullShare X0 ∗ owns (c : Thread nD τ) a4 fullShare X1 ∗ owns (c : Thread nD τ) a5 fullShare X2 ∗ owns (c : Thread nD τ) a6 fullShare X3 ∗ owns (c : Thread nD τ) a7 fullShare X4)

/-! ## The three runs

In each case the two guards are decided from the hypothesis on `k`, the body is run on the buffers' raw contents (for a
whole buffer, the contents that read the named ones), and the output buffer is read back: its contents are the run's
stores over what it held, every store covers it, so it reads the last store's payload; and each value that payload was
computed from is a whole-buffer load, which reads the named contents — or, where the load follows a store of the same
run, that store's payload. -/

set_option maxHeartbeats 1000000 in
/-- First block of the contraction (k = 0): the accumulator is reset, then the block's product is added. -/
theorem run_first (c : Dev nD) (E : Set ℕ) (i : grid0.Coords) (hk : (i 2).val = 0)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay2 X1 X2 X0 (k0_pay1 (F := F))) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : atFirst (i 2).val := (atFirst_iff ⟨_, hlt⟩).mpr hk
  have hc1 : ¬ atLast (i 2).val := fun h => by
    have h15 : (i 2).val = 15 := (atLast_iff ⟨_, hlt⟩).mp h
    omega
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the product's operands are the three input blocks; the accumulator it adds to is the zero block the reset stored
  simp only [View.readAt_eq_ld, Memref.IsWhole.read_unread, View.ld_unit_zero (S := S2048x256) offsets_zero,
    View.ld_unit_zero (S := S2304x256) offsets_zero, View.ld_unit_zero (S := S2304x1) offsets_zero,
    View.readCov_unit_zero (S := S2048x2304) _ offsets_zero]

set_option maxHeartbeats 1000000 in
/-- A middle block (0 < k < 15): the block's product is added to what the buffer held. -/
theorem run_mid (c : Dev nD) (E : Set ℕ) (i : grid0.Coords) (hk0 : (i 2).val ≠ 0) (hk15 : (i 2).val ≠ 15)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay2 X1 X2 X0 X4) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : ¬ atFirst (i 2).val := fun h => hk0 ((atFirst_iff ⟨_, hlt⟩).mp h)
  have hc1 : ¬ atLast (i 2).val := fun h => hk15 ((atLast_iff ⟨_, hlt⟩).mp h)
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the product's operands are the three input blocks; the accumulator it adds to is what the output block held
  simp only [View.readAt_eq_ld, Memref.IsWhole.read_unread, View.ld_unit_zero (S := S2048x256) offsets_zero,
    View.ld_unit_zero (S := S2304x256) offsets_zero, View.ld_unit_zero (S := S2304x1) offsets_zero, View.ld_unit_zero (S := S2048x2304) offsets_zero]

set_option maxHeartbeats 1000000 in
/-- The last block (k = 15): the product is added, then the bias row. -/
theorem run_last (c : Dev nD) (E : Set ℕ) (i : grid0.Coords) (hk : (i 2).val = 15)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay3 (k0_pay2 X1 X2 X0 X4) X3) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : ¬ atFirst (i 2).val := fun h => by
    have h0 : (i 2).val = 0 := (atFirst_iff ⟨_, hlt⟩).mp h
    omega
  have hc1 : atLast (i 2).val := (atLast_iff ⟨_, hlt⟩).mpr hk
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the bias is added to the block the product's store left, itself computed from the input blocks and what the output block held
  simp only [View.readAt_eq_ld, Memref.IsWhole.read_unread, View.ld_unit_zero (S := S2048x256) offsets_zero,
    View.ld_unit_zero (S := S2304x256) offsets_zero, View.ld_unit_zero (S := S2304x1) offsets_zero, View.ld_unit_zero (S := S2048x2304) offsets_zero,
    View.ld_unit_zero (S := S1x2304) offsets_zero, View.readCov_unit_zero (S := S2048x2304) _ offsets_zero]

end Cert.Kernel.BodyRun
end
-- ==== Proof.SchedK.lean ====
/-
  The schedule of the one pallas_call, in numbers.

  The grid has 4 × 5 × 16 points; point t = 80 i + 16 j + k is row tile i (2048 rows of the 8192), column tile j
  (2304 of the 11008 output channels: the fifth tile holds the last 1792) and feature block k (256 of the 4096).
  The x block depends on (i, k), the weight block on (j, k), the scale column and the bias row on j, the output block
  on (i, j).  Every fact here is decided over the 320 points.
-/
import proofs.«169078_j8504035246563_1_alg».proof.Proof.Gen.Kernel.Points
import proofs.«169078_j8504035246563_1_alg».proof.Proof.Gen.Kernel.Launch

set_option maxRecDepth 16384

noncomputable section

namespace Cert.Kernel.Sched

open Cert.Kernel Cert.Kernel.Gen
open Idealize.ShloMosaic Idealize.ShloMosaic.TcCoe
open Idealize.SL Idealize.SL.Sem

/-- There are 320 points. -/
theorem t_lt (t : Fin cfg0.N) : t.val < 320 := lt_of_lt_of_eq t.isLt N_0

/-- The coordinates of point t are (t / 80, t / 16 mod 5, t mod 16). -/
theorem coords_val : ∀ t : Fin cfg0.N,
    (grid0.coords t 0).val = t.val / 80 ∧ (grid0.coords t 1).val = t.val / 16 % 5 ∧ (grid0.coords t 2).val = t.val % 16 :=
  (by decide +kernel : ∀ t : Fin grid0.N,
    (grid0.coords t 0).val = t.val / 80 ∧ (grid0.coords t 1).val = t.val / 16 % 5 ∧ (grid0.coords t 2).val = t.val % 16)

/-- The block index of each window at point t. -/
theorem index0 : ∀ t : Fin cfg0.N, win0_0.index t 0 = t.val / 80 ∧ win0_0.index t 1 = t.val % 16 :=
  (by decide +kernel : ∀ t : Fin grid0.N, win0_0.index t 0 = t.val / 80 ∧ win0_0.index t 1 = t.val % 16)
theorem index1 : ∀ t : Fin cfg0.N, win0_1.index t 0 = t.val / 16 % 5 ∧ win0_1.index t 1 = t.val % 16 :=
  (by decide +kernel : ∀ t : Fin grid0.N, win0_1.index t 0 = t.val / 16 % 5 ∧ win0_1.index t 1 = t.val % 16)
theorem index2 : ∀ t : Fin cfg0.N, win0_2.index t 0 = t.val / 16 % 5 ∧ win0_2.index t 1 = 0 :=
  (by decide +kernel : ∀ t : Fin grid0.N, win0_2.index t 0 = t.val / 16 % 5 ∧ win0_2.index t 1 = 0)
theorem index3 : ∀ t : Fin cfg0.N, win0_3.index t 0 = 0 ∧ win0_3.index t 1 = t.val / 16 % 5 :=
  (by decide +kernel : ∀ t : Fin grid0.N, win0_3.index t 0 = 0 ∧ win0_3.index t 1 = t.val / 16 % 5)
theorem index4 : ∀ t : Fin cfg0.N, win0_4.index t 0 = t.val / 80 ∧ win0_4.index t 1 = t.val / 16 % 5 :=
  (by decide +kernel : ∀ t : Fin grid0.N, win0_4.index t 0 = t.val / 80 ∧ win0_4.index t 1 = t.val / 16 % 5)

/-- How many columns of its 2304 the column tile of point t has inside the 11008: all of them but for the fifth tile. -/
def ncols (t : Fin cfg0.N) : Nat := if t.val / 16 % 5 = 4 then 1792 else 2304

theorem ncols_le (t : Fin cfg0.N) : t.val / 16 % 5 * 2304 + ncols t ≤ 11008 := by
  unfold ncols; split <;> omega

theorem ncols_reach (t : Fin cfg0.N) : ncols t = 2304 ∨ t.val / 16 % 5 * 2304 + ncols t = 11008 := by
  unfold ncols; split
  · right; omega
  · left; rfl

/-- The part of each window's block that lies inside its array, at point t. -/
theorem xsize1 : ∀ t : Fin cfg0.N, win0_1.xsize (grid0.coords t) 0 = ncols t ∧ win0_1.xsize (grid0.coords t) 1 = 256 :=
  (by decide +kernel : ∀ t : Fin grid0.N, win0_1.xsize (grid0.coords t) 0 = (if t.val / 16 % 5 = 4 then 1792 else 2304) ∧ win0_1.xsize (grid0.coords t) 1 = 256)
theorem xsize2 : ∀ t : Fin cfg0.N, win0_2.xsize (grid0.coords t) 0 = ncols t ∧ win0_2.xsize (grid0.coords t) 1 = 1 :=
  (by decide +kernel : ∀ t : Fin grid0.N, win0_2.xsize (grid0.coords t) 0 = (if t.val / 16 % 5 = 4 then 1792 else 2304) ∧ win0_2.xsize (grid0.coords t) 1 = 1)
theorem xsize3 : ∀ t : Fin cfg0.N, win0_3.xsize (grid0.coords t) 0 = 1 ∧ win0_3.xsize (grid0.coords t) 1 = ncols t :=
  (by decide +kernel : ∀ t : Fin grid0.N, win0_3.xsize (grid0.coords t) 0 = 1 ∧ win0_3.xsize (grid0.coords t) 1 = (if t.val / 16 % 5 = 4 then 1792 else 2304))
theorem xsize4 : ∀ t : Fin cfg0.N, win0_4.xsize (grid0.coords t) 0 = 2048 ∧ win0_4.xsize (grid0.coords t) 1 = ncols t :=
  (by decide +kernel : ∀ t : Fin grid0.N, win0_4.xsize (grid0.coords t) 0 = 2048 ∧ win0_4.xsize (grid0.coords t) 1 = (if t.val / 16 % 5 = 4 then 1792 else 2304))

/-- The cuts of a clipped window are a function of its block index. -/
theorem clip1 (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [show win0_1.index t a = win0_1.index t' a from congrFun h a]
theorem clip2 (t t' : Fin cfg0.N) (h : (cfg0.win 2).index t = (cfg0.win 2).index t') :
    (cfg0.win 2).clip (cfg0.grid.coords t) = (cfg0.win 2).clip (cfg0.grid.coords t') := by
  funext a
  show Pipeline.Clip.of (win0_2.index t a) _ _ = Pipeline.Clip.of (win0_2.index t' a) _ _
  rw [show win0_2.index t a = win0_2.index t' a from congrFun h a]
theorem clip3 (t t' : Fin cfg0.N) (h : (cfg0.win 3).index t = (cfg0.win 3).index t') :
    (cfg0.win 3).clip (cfg0.grid.coords t) = (cfg0.win 3).clip (cfg0.grid.coords t') := by
  funext a
  show Pipeline.Clip.of (win0_3.index t a) _ _ = Pipeline.Clip.of (win0_3.index t' a) _ _
  rw [show win0_3.index t a = win0_3.index t' a from congrFun h a]

end Cert.Kernel.Sched

end
-- ==== Proof.BlocksK.lean ====
/-
  The windows' blocks by coordinates, and the proof data over them.

  At point t = 80 i + 16 j + k the body finds: the x block, rows 2048 i … of the flattened input and features 256 k …;
  the weight block, rows 2304 j … of the weight and the same features; the scale column and the bias row of the same
  channels.  For the fifth column tile only the first 1792 channels exist: past them a staging buffer holds words
  nothing names, which the blocks below fill with zero.  What is stated of a clipped window is always its part inside
  the array (its cut), and that part is the array's block.
-/
import proofs.«169078_j8504035246563_1_alg».proof.Proof.Gen.Kernel.Frame
import proofs.«169078_j8504035246563_1_alg».proof.Proof.SchedK
import Idealize.ShloMosaic.Lib.Pipeline.Value
import Idealize.ShloMosaic.Lib.ValueIdx

set_option maxRecDepth 16384

noncomputable section

namespace Cert.Kernel.Blocks

open Cert.Kernel Cert.Kernel.Gen Cert.Kernel.Sched
open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-- The arrays the windows stage, as the region finds them: the flattened input, the weight, its scale, the bias. -/
abbrev arrX (c : Dev nD) : S8192x4096.Idx → Elt F .f32 := V m c main_v0
abbrev arrW (c : Dev nD) : S11008x4096.Idx → Elt F .f32 := V m c main_arg1
abbrev arrS (c : Dev nD) : S11008x1.Idx → Elt F .f32 := V m c main_arg2
abbrev arrB (c : Dev nD) : S1x11008.Idx → Elt F .f32 := V m c main_arg3

/-- The x block at point t. -/
def aX (c : Dev nD) (t : Fin cfg0.N) : Vec F S2048x256 .f32 := fun j =>
  arrX m c (ix2 ⟨t.val / 80 * 2048 + (j 0).val, by have := t_lt t; have := idx2_lt0 j; omega⟩
    ⟨t.val % 16 * 256 + (j 1).val, by have := idx2_lt1 j; omega⟩)

/-- The weight block at point t, zero past the last channel. -/
def aW (c : Dev nD) (t : Fin cfg0.N) : Vec F S2304x256 .f32 := fun j =>
  if h : t.val / 16 % 5 * 2304 + (j 0).val < 11008 then
    arrW m c (ix2 ⟨t.val / 16 % 5 * 2304 + (j 0).val, h⟩ ⟨t.val % 16 * 256 + (j 1).val, by have := idx2_lt1 j; omega⟩)
  else Scalar.ofBits .f32 0#32

/-- The scale column at point t, zero past the last channel. -/
def aS (c : Dev nD) (t : Fin cfg0.N) : Vec F S2304x1 .f32 := fun j =>
  if h : t.val / 16 % 5 * 2304 + (j 0).val < 11008 then
    arrS m c (ix2 ⟨t.val / 16 % 5 * 2304 + (j 0).val, h⟩ (0 : Fin 1))
  else Scalar.ofBits .f32 0#32

/-- The bias row at point t, zero past the last channel. -/
def aB (c : Dev nD) (t : Fin cfg0.N) : Vec F S1x2304 .f32 := fun j =>
  if h : t.val / 16 % 5 * 2304 + (j 1).val < 11008 then
    arrB m c (ix2 (0 : Fin 1) ⟨t.val / 16 % 5 * 2304 + (j 1).val, h⟩)
  else Scalar.ofBits .f32 0#32

theorem aW_of_lt (c : Dev nD) (t : Fin cfg0.N) (j : S2304x256.Idx) (h : t.val / 16 % 5 * 2304 + (j 0).val < 11008) :
    aW m c t j = arrW m c (ix2 ⟨t.val / 16 % 5 * 2304 + (j 0).val, h⟩ ⟨t.val % 16 * 256 + (j 1).val, by have := idx2_lt1 j; omega⟩) :=
  dif_pos h
theorem aS_of_lt (c : Dev nD) (t : Fin cfg0.N) (j : S2304x1.Idx) (h : t.val / 16 % 5 * 2304 + (j 0).val < 11008) :
    aS m c t j = arrS m c (ix2 ⟨t.val / 16 % 5 * 2304 + (j 0).val, h⟩ (0 : Fin 1)) :=
  dif_pos h
theorem aB_of_lt (c : Dev nD) (t : Fin cfg0.N) (j : S1x2304.Idx) (h : t.val / 16 % 5 * 2304 + (j 1).val < 11008) :
    aB m c t j = arrB m c (ix2 (0 : Fin 1) ⟨t.val / 16 % 5 * 2304 + (j 1).val, h⟩) :=
  dif_pos h

/-! ## Each block is its array's block -/

/-- The x window is not clipped: its block is the array's block, entry by entry. -/
theorem aX_eq (c : Dev nD) (t : Fin cfg0.N) : aX m c t = iblk m c 0 t := by
  funext y
  obtain ⟨hi0, hi1⟩ := index0 t
  unfold aX iblk
  rw [View.read_apply]
  show arrX m c _ = arrX m c _
  congr 1
  funext a
  apply Fin.ext
  match a with
  | ⟨0, _⟩ => show t.val / 80 * 2048 + (y 0).val = win0_0.index t 0 * 2048 + 1 * (y 0).val; rw [hi0]; omega
  | ⟨1, _⟩ => show t.val % 16 * 256 + (y 1).val = win0_0.index t 1 * 256 + 1 * (y 1).val; rw [hi1]; omega

/-- The part of the weight block inside the array is the array's block. -/
theorem cut_aW (c : Dev nD) (t : Fin cfg0.N) : win0_1.cut (grid0.coords t) (aW m c t) = iblk m c 1 t := by
  funext y
  obtain ⟨hi0, hi1⟩ := index1 t
  obtain ⟨hx0, hx1⟩ := xsize1 t
  have hy0 : (y 0).val < win0_1.xsize (grid0.coords t) 0 := (y 0).isLt
  have hy1 : (y 1).val < win0_1.xsize (grid0.coords t) 1 := (y 1).isLt
  rw [hx0] at hy0
  rw [hx1] at hy1
  have hle := ncols_le t
  have hin : t.val / 16 % 5 * 2304 + ((win0_1.xinj (grid0.coords t) y) 0).val < 11008 := by
    show t.val / 16 % 5 * 2304 + (y 0).val < 11008
    omega
  refine (aW_of_lt m c t (win0_1.xinj (grid0.coords t) y) hin).trans ?_
  unfold iblk
  rw [View.read_apply]
  show arrW m c _ = arrW m c _
  congr 1
  funext a
  apply Fin.ext
  match a with
  | ⟨0, _⟩ => show t.val / 16 % 5 * 2304 + (y 0).val = win0_1.index t 0 * 2304 + 1 * (y 0).val; rw [hi0]; omega
  | ⟨1, _⟩ => show t.val % 16 * 256 + (y 1).val = win0_1.index t 1 * 256 + 1 * (y 1).val; rw [hi1]; omega

/-- The part of the scale column inside the array is the array's block. -/
theorem cut_aS (c : Dev nD) (t : Fin cfg0.N) : win0_2.cut (grid0.coords t) (aS m c t) = iblk m c 2 t := by
  funext y
  obtain ⟨hi0, hi1⟩ := index2 t
  obtain ⟨hx0, hx1⟩ := xsize2 t
  have hy0 : (y 0).val < win0_2.xsize (grid0.coords t) 0 := (y 0).isLt
  have hy1 : (y 1).val < win0_2.xsize (grid0.coords t) 1 := (y 1).isLt
  rw [hx0] at hy0
  rw [hx1] at hy1
  have hle := ncols_le t
  have hin : t.val / 16 % 5 * 2304 + ((win0_2.xinj (grid0.coords t) y) 0).val < 11008 := by
    show t.val / 16 % 5 * 2304 + (y 0).val < 11008
    omega
  refine (aS_of_lt m c t (win0_2.xinj (grid0.coords t) y) hin).trans ?_
  unfold iblk
  rw [View.read_apply]
  show arrS m c _ = arrS m c _
  congr 1
  funext a
  apply Fin.ext
  match a with
  | ⟨0, _⟩ => show t.val / 16 % 5 * 2304 + (y 0).val = win0_2.index t 0 * 2304 + 1 * (y 0).val; rw [hi0]; omega
  | ⟨1, _⟩ => show 0 = win0_2.index t 1 * 1 + 1 * (y 1).val; rw [hi1]; omega

/-- The part of the bias row inside the array is the array's block. -/
theorem cut_aB (c : Dev nD) (t : Fin cfg0.N) : win0_3.cut (grid0.coords t) (aB m c t) = iblk m c 3 t := by
  funext y
  obtain ⟨hi0, hi1⟩ := index3 t
  obtain ⟨hx0, hx1⟩ := xsize3 t
  have hy0 : (y 0).val < win0_3.xsize (grid0.coords t) 0 := (y 0).isLt
  have hy1 : (y 1).val < win0_3.xsize (grid0.coords t) 1 := (y 1).isLt
  rw [hx0] at hy0
  rw [hx1] at hy1
  have hle := ncols_le t
  have hin : t.val / 16 % 5 * 2304 + ((win0_3.xinj (grid0.coords t) y) 1).val < 11008 := by
    show t.val / 16 % 5 * 2304 + (y 1).val < 11008
    omega
  refine (aB_of_lt m c t (win0_3.xinj (grid0.coords t) y) hin).trans ?_
  unfold iblk
  rw [View.read_apply]
  show arrB m c _ = arrB m c _
  congr 1
  funext a
  apply Fin.ext
  match a with
  | ⟨0, _⟩ => show 0 = win0_3.index t 0 * 1 + 1 * (y 0).val; rw [hi0]; omega
  | ⟨1, _⟩ => show t.val / 16 % 5 * 2304 + (y 1).val = win0_3.index t 1 * 2304 + 1 * (y 1).val; rw [hi1]; omega

/-! ## The proof data -/

/-- The proof data of the pipeline on core c, for any account acc of what the output's staging buffer holds after
    each point: the arrays as the region finds them; after the body each input's buffer at its block; the output's at
    acc; the class's invariant; nothing owed; full shares. -/
def mkDat (c : Dev nD) (acc : Fin cfg0.N → Vec F S2048x2304 .f32) : Dat τ (Elt F) Unit ℕ (UR sig nD τ) ℕ cfg0 c where
  A w := V m c (Pipeline.arrRef spec0 w)
  after w t := match w with
    | ⟨0, _⟩ => iblk m c 0 t
    | ⟨1, _⟩ => aW m c t
    | ⟨2, _⟩ => aS m c t
    | ⟨3, _⟩ => aB m c t
    | ⟨4, _⟩ => acc t
  Φ _ := Pipeline.ΦA spec0 c
  q _ := fullShare
  owed _ := 0

variable (c : Dev nD) (acc : Fin cfg0.N → Vec F S2048x2304 .f32)

theorem A_eq (w : Fin cfg0.W) : (mkDat m c acc).A w = V m c (Pipeline.arrRef spec0 w) := by
  dsimp only [mkDat]

theorem after0 (t : Fin cfg0.N) : (mkDat m c acc).after 0 t = iblk m c 0 t := by dsimp only [mkDat]
theorem after1 (t : Fin cfg0.N) : (mkDat m c acc).after 1 t = aW m c t := by dsimp only [mkDat]
theorem after2 (t : Fin cfg0.N) : (mkDat m c acc).after 2 t = aS m c t := by dsimp only [mkDat]
theorem after3 (t : Fin cfg0.N) : (mkDat m c acc).after 3 t = aB m c t := by dsimp only [mkDat]
theorem after4 (t : Fin cfg0.N) : (mkDat m c acc).after 4 t = acc t := by dsimp only [mkDat]

/-! ## What the body finds in the inputs' staging buffers -/

/-- The x buffer holds its block at every point. -/
theorem before0 (t : Fin cfg0.N) (d) : (mkDat m c acc).before 0 t d = iblk m c 0 t :=
  before0_0_of m (mkDat m c acc) (A_eq m c acc 0) (after0 m c acc) t d

/-- The weight buffer holds the array's block on the part inside the array, whatever it held elsewhere. -/
theorem before1 (t : Fin cfg0.N) (d) : (mkDat m c acc).before 1 t d = win0_1.fill (grid0.coords t) d (iblk m c 1 t) :=
  ((mkDat m c acc).before_in_eq_fetched 1 rfl (fun _ => rfl) clip1
    (fun t => by rw [after1]; unfold Dat.blockOf; rw [A_eq]; exact cut_aW m c t) t d).trans
    (by unfold Dat.fetched Dat.blockOf iblk; rw [A_eq]; try rfl)

/-- So does the scale buffer, fetched at this point or carried from the point before. -/
theorem before2 (t : Fin cfg0.N) (d) : (mkDat m c acc).before 2 t d = win0_2.fill (grid0.coords t) d (iblk m c 2 t) :=
  ((mkDat m c acc).before_in_eq_fetched 2 rfl (fun _ => rfl) clip2
    (fun t => by rw [after2]; unfold Dat.blockOf; rw [A_eq]; exact cut_aS m c t) t d).trans
    (by unfold Dat.fetched Dat.blockOf iblk; rw [A_eq]; try rfl)

/-- And the bias buffer. -/
theorem before3 (t : Fin cfg0.N) (d) : (mkDat m c acc).before 3 t d = win0_3.fill (grid0.coords t) d (iblk m c 3 t) :=
  ((mkDat m c acc).before_in_eq_fetched 3 rfl (fun _ => rfl) clip3
    (fun t => by rw [after3]; unfold Dat.blockOf; rw [A_eq]; exact cut_aB m c t) t d).trans
    (by unfold Dat.fetched Dat.blockOf iblk; rw [A_eq]; try rfl)

/-! ## Contents that agree on the part inside the array -/

section Cut
variable {G : Pipeline.Grid} (w : Window sig G) {α : Type}

/-- Two contents of a block whose parts inside the array agree, agree at every entry the transfers move. -/
theorem eq_of_cut_eq (i : G.Coords) {X X' : w.block.Idx → α} (h : w.cut i X = w.cut i X') (j : w.block.Idx)
    (hj : w.moved i j = true) : X j = X' j := by
  have e : w.xinj i (fun a => ⟨(j a).val, (w.moved_iff i j).mp hj a⟩) = j := funext fun a => Fin.ext rfl
  have h' := congrFun h (fun a => ⟨(j a).val, (w.moved_iff i j).mp hj a⟩)
  exact (congrArg X e).symm.trans (h'.trans (congrArg X' e))

/-- What a buffer holds after it was filled, at coordinates i', with the part inside the array of X, has at
    coordinates i with the same cuts the part inside the array of X. -/
theorem cut_fill_cut (i i' : G.Coords) (hc : w.clip i' = w.clip i) (d X : w.block.Idx → α) :
    w.cut i (w.fill i' d (w.cut i' X)) = w.cut i X := by
  funext y
  have hm : w.moved i' (w.xinj i y) = true := by
    have : w.moved i' (w.xinj i y) = w.moved i (w.xinj i y) := by unfold Window.moved; rw [hc]
    rw [this]; exact w.moved_xinj i y
  show w.fill i' d (w.cut i' X) (w.xinj i y) = X (w.xinj i y)
  unfold Window.fill
  rw [dif_pos hm]

end Cut

end Cert.Kernel.Blocks

end
-- ==== Proof.ForgetK.lean ====
/-
  The frame, with the output window forgotten.

  The program runs to its end without a fault and leaves its four arguments as they were.  For this claim nothing
  the body computes matters: the output's staging buffer is handed to the body at contents nothing names and taken back
  so, and the three clipped inputs are stated on their part inside the array only, which the body never writes.  (At
  the word-level instance this is also all that can be said: a matrix product there is an opaque function of its whole
  operand, and past the last channel the weight buffer holds words nothing names.)
-/
import proofs.«169078_j8504035246563_1_alg».proof.Proof.BodyRunK
import proofs.«169078_j8504035246563_1_alg».proof.Proof.BlocksK
import Idealize.ShloMosaic.Lib.Pipeline.FrameSuffix
import Idealize.ShloMosaic.Lib.Tactic

set_option maxRecDepth 16384

noncomputable section

namespace Cert.Kernel.Forget

open Cert.Kernel Cert.Kernel.Gen Cert.Kernel.Sched Cert.Kernel.Blocks Cert.Kernel.BodyRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window (the fifth) is forgotten. -/
def forgets : Fin 5 → Bool := fun w => w.val == 4

/-- No account of the output's staging buffer. -/
def noAcc : Fin cfg0.N → Vec F S2048x2304 .f32 := fun _ _ => Scalar.ofBits .f32 0#32

/-- The proof data. -/
abbrev dat (c : Dev nD) : Dat τ (Elt F) Unit ℕ (UR sig nD τ) ℕ cfg0 c := mkDat m c (noAcc (F := F))

/-- What the body is called with at point t: each input's buffer at what it then holds, the output's at anything. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ X, owns (c : Thread nD τ) (st0_4 t) fullShare X))

/-- What it returns: the x buffer at its block, each clipped input's at its block on the part inside the array, the
    output's at anything. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ (∃ d, owns (c : Thread nD τ) (st0_1 t) fullShare (win0_1.fill (grid0.coords t) d (win0_1.cut (grid0.coords t) ((dat m c).after 1 t))))
    ∗ (∃ d, owns (c : Thread nD τ) (st0_2 t) fullShare (win0_2.fill (grid0.coords t) d (win0_2.cut (grid0.coords t) ((dat m c).after 2 t))))
    ∗ (∃ d, owns (c : Thread nD τ) (st0_3 t) fullShare (win0_3.fill (grid0.coords t) d (win0_3.cut (grid0.coords t) ((dat m c).after 3 t))))
    ∗ (∃ X, owns (c : Thread nD τ) (st0_4 t) fullShare X))

set_option maxHeartbeats 1600000 in
/-- The body at any point, in its three cases by the feature block's number: the buffers it only reads come back as
    they were, and whatever it stores into the output's buffer is not named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dat m c).Φ t.succ = (dat m c).Φ t.castSucc from rfl,
    show (dat m c).owesAt () t.succ = (dat m c).owesAt () t.castSucc from rfl,
    after0, after1, after2, after3, cut_aW, cut_aS, cut_aB]
  obtain ⟨-, -, hk⟩ := coords_val t
  by_cases h0 : t.val % 16 = 0
  · iintro ⟨HΦ, Ho, ⟨%d0, H0⟩, ⟨%d1, H1⟩, ⟨%d2, H2⟩, ⟨%d3, H3⟩, ⟨%X4, H4⟩⟩
    iapply (run_first (F := F) c Set.univ (grid0.coords t) (hk.trans h0) _ _ _ _ _ _ _ _ _ _
      (iblk m c 0 t) (win0_1.fill (grid0.coords t) d1 (iblk m c 1 t)) (win0_2.fill (grid0.coords t) d2 (iblk m c 2 t))
      (win0_3.fill (grid0.coords t) d3 (iblk m c 3 t)) X4 _)
    unfold held
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexact H0
    isplitl [H1]; · iexists d1; iexact H1
    isplitl [H2]; · iexists d2; iexact H2
    isplitl [H3]; · iexists d3; iexact H3
    iexists _; iexact H4
  · by_cases h15 : t.val % 16 = 15
    · iintro ⟨HΦ, Ho, ⟨%d0, H0⟩, ⟨%d1, H1⟩, ⟨%d2, H2⟩, ⟨%d3, H3⟩, ⟨%X4, H4⟩⟩
      iapply (run_last (F := F) c Set.univ (grid0.coords t) (hk.trans h15) _ _ _ _ _ _ _ _ _ _
        (iblk m c 0 t) (win0_1.fill (grid0.coords t) d1 (iblk m c 1 t)) (win0_2.fill (grid0.coords t) d2 (iblk m c 2 t))
        (win0_3.fill (grid0.coords t) d3 (iblk m c 3 t)) X4 _)
      unfold held
      isplitl [H0 H1 H2 H3 H4]
      · isplitl [H0]; · iexact H0
        isplitl [H1]; · iexact H1
        isplitl [H2]; · iexact H2
        isplitl [H3]; · iexact H3
        iexact H4
      iintro ⟨H0, H1, H2, H3, H4⟩
      isplitl [HΦ]; · iexact HΦ
      isplitl [Ho]; · iexact Ho
      isplitl [H0]; · iexact H0
      isplitl [H1]; · iexists d1; iexact H1
      isplitl [H2]; · iexists d2; iexact H2
      isplitl [H3]; · iexists d3; iexact H3
      iexists _; iexact H4
    · iintro ⟨HΦ, Ho, ⟨%d0, H0⟩, ⟨%d1, H1⟩, ⟨%d2, H2⟩, ⟨%d3, H3⟩, ⟨%X4, H4⟩⟩
      iapply (run_mid (F := F) c Set.univ (grid0.coords t) (fun h => h0 (hk.symm.trans h)) (fun h => h15 (hk.symm.trans h)) _ _ _ _ _ _ _ _ _ _
        (iblk m c 0 t) (win0_1.fill (grid0.coords t) d1 (iblk m c 1 t)) (win0_2.fill (grid0.coords t) d2 (iblk m c 2 t))
        (win0_3.fill (grid0.coords t) d3 (iblk m c 3 t)) X4 _)
      unfold held
      isplitl [H0 H1 H2 H3 H4]
      · isplitl [H0]; · iexact H0
        isplitl [H1]; · iexact H1
        isplitl [H2]; · iexact H2
        isplitl [H3]; · iexact H3
        iexact H4
      iintro ⟨H0, H1, H2, H3, H4⟩
      isplitl [HΦ]; · iexact HΦ
      isplitl [Ho]; · iexact Ho
      isplitl [H0]; · iexact H0
      isplitl [H1]; · iexists d1; iexact H1
      isplitl [H2]; · iexists d2; iexact H2
      isplitl [H3]; · iexists d3; iexact H3
      iexists _; iexact H4

/-- The library's body obligation, the output window forgotten. -/
theorem body_obligation (c : Dev nD) :
    BodyObligationLoose (dat (F := F) m c) (defs₀ (F := F)) Variants.none () Set.univ forgets := fun t => by
  rw [bigSep_W0, bigSep_W0]
  exact sound_body m c t

/-- The one host line after the region writes the reshaped result and nothing else. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  refine Finset.mem_singleton.mpr ?_
  by_contra hne
  exact StableHlo.devRef_ne_of_ne hne hb

set_option backward.isDefEq.respectTransparency.types false in
/-- From any memory with zero counters every weakly fair execution of the program terminates, and in every final state
    each input array of the pipeline holds what it held and the flattened-input buffer aside, every buffer that bypasses
    the region and is not the reshaped result holds what it held when the region was entered. -/
theorem run_main : θ_run defs (onTc (τ := τ) (main (F := F))) (s₀ m ρ)
    (Pipeline.RDat.FramePostR (cfgs 0) (fun c => (dat m c).toRForget forgets) {main_v2} (fun c b => V0 m c (Proc.devRef .tc b))) :=
  Pipeline.RDat.θ_run_frame_around_T cfgs (0 : Fin 1) launch0 defs₀ Variants.none (fun c => (dat m c).toRForget forgets) {main_v2} m ρ main
    (hbody := fun c => (body_obligation m c).toRForget)
    (hshare := fun c => ((dat m c).toRForget forgets).share_full fun _ => rfl)
    (howed := fun _ _ => rfl) (V₀ := V0 m) (opss := [hostOps1])
    (hsub := sfx_sub) (hfresh := sfx_fresh) (hkeep := sfx_keeps) (hT := tail_writes)
    (hmain := hmain m Variants.none) (hA := fun c w => A_eq m c (noAcc (F := F)) w) (hΦ := fun _ _ => rfl)

/-- THE FRAME: the program runs and its four arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Finset.mem_sdiff.mpr ⟨Pipeline.mem_restRefs_of main_arg0 (by decide) (by decide), by decide⟩)).trans (V_main_arg0 m c),
     (Pipeline.RDat.FramePostR.arr_in h c 1 rfl).trans ((A_eq m c (noAcc (F := F)) 1).trans (V_main_arg1 m c)),
     (Pipeline.RDat.FramePostR.arr_in h c 2 rfl).trans ((A_eq m c (noAcc (F := F)) 2).trans (V_main_arg2 m c)),
     (Pipeline.RDat.FramePostR.arr_in h c 3 rfl).trans ((A_eq m c (noAcc (F := F)) 3).trans (V_main_arg3 m c))⟩)
    (run_main m ρ)

end Cert.Kernel.Forget

end
-- ==== Proof.PayI.lean ====
import proofs.«169078_j8504035246563_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# The kernel body's three stored values, read at one entry, over the extended reals

Over the extended reals every float operation is the exact one and a change of format is the identity. The body stores
three values into its accumulator block of shape [2048, 2304]:

* the reset value, zero everywhere;
* the accumulating value: at (r, n), what the block held plus the sum over k below 256 of x (r, k) · (w (n, k) · s (n)),
  the product of the x block [2048, 256] with the weight block [2304, 256] scaled row by row by the column s [2304, 1],
  contracting the second axis of both;
* the bias value: at (r, n), what the block held plus the bias row's entry b (0, n).
-/

noncomputable section
open scoped BigOperators
namespace Cert.KernelIdeal.Pay
open Cert.KernelIdeal Cert.KernelIdeal.Gen Idealize.ShloMosaic Idealize.ShloMosaic.ValueIdx

/-! ## A column broadcast along rows -/

/-- An [a, 1] column broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices

The product contracts axis 1 of both operands and keeps axis 0 of each: at output (r, n) and contraction position k the
left operand is read at (r, k) and the right operand at (n, k). One statement per operand axis. -/

/-- Axis 0 of the left operand's index is the output's row. -/
theorem lhs_axis0 (i : S2048x2304.Idx) (q : dot_S2048x256_S2304x256_S2048x2304_1_1_0_0_n_n.contr.Idx) :
    (dot_S2048x256_S2304x256_S2048x2304_1_1_0_0_n_n.lhsIdx i q 0).val = (i 0).val := by
  unfold DotDims.lhsIdx
  rw [dif_neg (show ¬(0 : Fin S2048x256.rank) ∈ dot_S2048x256_S2304x256_S2048x2304_1_1_0_0_n_n.lhsBatch by decide),
    dif_pos (show (0 : Fin S2048x256.rank) ∈ dot_S2048x256_S2304x256_S2048x2304_1_1_0_0_n_n.lhsNonContracting by decide)]
  rfl

/-- Axis 1 of the left operand's index is the contraction position. -/
theorem lhs_axis1 (i : S2048x2304.Idx) (q : dot_S2048x256_S2304x256_S2048x2304_1_1_0_0_n_n.contr.Idx) :
    (dot_S2048x256_S2304x256_S2048x2304_1_1_0_0_n_n.lhsIdx i q 1).val = (q ⟨0, by decide⟩).val :=
  dot_S2048x256_S2304x256_S2048x2304_1_1_0_0_n_n.lhsIdx_val_of_single rfl i q

/-- Axis 0 of the right operand's index is the output's column. -/
theorem rhs_axis0 (i : S2048x2304.Idx) (q : dot_S2048x256_S2304x256_S2048x2304_1_1_0_0_n_n.contr.Idx) :
    (dot_S2048x256_S2304x256_S2048x2304_1_1_0_0_n_n.rhsIdx i q 0).val = (i 1).val := by
  unfold DotDims.rhsIdx
  rw [dif_neg (show ¬(0 : Fin S2304x256.rank) ∈ dot_S2048x256_S2304x256_S2048x2304_1_1_0_0_n_n.rhsBatch by decide),
    dif_pos (show (0 : Fin S2304x256.rank) ∈ dot_S2048x256_S2304x256_S2048x2304_1_1_0_0_n_n.rhsNonContracting by decide)]
  rfl

/-- Axis 1 of the right operand's index is the contraction position. -/
theorem rhs_axis1 (i : S2048x2304.Idx) (q : dot_S2048x256_S2304x256_S2048x2304_1_1_0_0_n_n.contr.Idx) :
    (dot_S2048x256_S2304x256_S2048x2304_1_1_0_0_n_n.rhsIdx i q 1).val = (q ⟨0, by decide⟩).val :=
  dot_S2048x256_S2304x256_S2048x2304_1_1_0_0_n_n.rhsIdx_val_of_single rfl i q

/-! ## The product into a zero accumulator, read at (r, n) -/

/-- The product of a [2048, 256] block with a [2304, 256] block over their second axes, accumulated into zero, is at
(r, n) the sum over the 256 contracted positions of the entries' products. -/
theorem matmul_zero_apply (Xv : FVec Ideal S2048x256 .bf16) (Wv : FVec Ideal S2304x256 .bf16) (r : Fin 2048) (n : Fin 2304) :
    matmul dot_S2048x256_S2304x256_S2048x2304_1_1_0_0_n_n none Xv Wv
        (constant (F := Ideal) S2048x2304 .f32 0x00000000#32) (ix2 r n)
      = ∑ k : Fin 256, Xv (ix2 r k) * Wv (ix2 n k) := by
  show FloatOps.matmul dot_S2048x256_S2304x256_S2048x2304_1_1_0_0_n_n none Xv Wv
      (constant (F := Ideal) S2048x2304 .f32 0x00000000#32) (ix2 r n) = _
  rw [Ideal.matmul_constant_zero_apply,
    ← Equiv.sum_comp (contrEquiv1 dot_S2048x256_S2304x256_S2048x2304_1_1_0_0_n_n 256 rfl rfl).symm]
  refine Finset.sum_congr rfl fun k _ => ?_
  have hk := contrEquiv1_symm_val dot_S2048x256_S2304x256_S2048x2304_1_1_0_0_n_n 256 rfl rfl k
  have el : dot_S2048x256_S2304x256_S2048x2304_1_1_0_0_n_n.lhsIdx (ix2 r n)
      ((contrEquiv1 dot_S2048x256_S2304x256_S2048x2304_1_1_0_0_n_n 256 rfl rfl).symm k) = ix2 r k :=
    funext fun a => Fin.ext (by
      match a with
      | ⟨0, _⟩ => exact lhs_axis0 _ _
      | ⟨1, _⟩ => exact (lhs_axis1 _ _).trans hk)
  have er : dot_S2048x256_S2304x256_S2048x2304_1_1_0_0_n_n.rhsIdx (ix2 r n)
      ((contrEquiv1 dot_S2048x256_S2304x256_S2048x2304_1_1_0_0_n_n 256 rfl rfl).symm k) = ix2 n k :=
    funext fun a => Fin.ext (by
      match a with
      | ⟨0, _⟩ => exact rhs_axis0 _ _
      | ⟨1, _⟩ => exact (rhs_axis1 _ _).trans hk)
  rw [el, er]

/-! ## The three stored values -/

/-- The reset value is zero everywhere. -/
theorem pay1_apply (j : S2048x2304.Idx) : (k0_pay1 (F := Ideal) j : EReal) = 0 := by
  show Ideal.ofBits .f32 0x00000000#32 = 0
  exact Ideal.ofBits_zero_f32

/-- The accumulating value as one expression of its four operands: the block's contents plus the product, into zero, of
the x block with the scaled weight block, both narrowed. -/
theorem pay2_eq (W : Vec Ideal S2304x256 .f32) (S : Vec Ideal S2304x1 .f32) (X : Vec Ideal S2048x256 .f32)
    (A : Vec Ideal S2048x2304 .f32) :
    k0_pay2 W S X A
      = addf (shapeCast S2048x2304 A shapeCasts_S2048x2304_S2048x2304)
          (matmul dot_S2048x256_S2304x256_S2048x2304_1_1_0_0_n_n none
            (truncf .bf16 (shapeCast S2048x256 X shapeCasts_S2048x256_S2048x256) bitsLt_bf16_f32)
            (truncf .bf16 (mulf W (broadcastTo S2304x256 S broadcasts_S2304x1_S2304x256)) bitsLt_bf16_f32)
            (constant (F := Ideal) S2048x2304 .f32 0x00000000#32)) := rfl

/-- The accumulating store at entry (r, n): what the buffer held there plus the sum over the block's 256 features of x (r, k) · (w (n, k) · s (n)). -/
theorem pay2_apply (W : Vec Ideal S2304x256 .f32) (S : Vec Ideal S2304x1 .f32) (X : Vec Ideal S2048x256 .f32) (A : Vec Ideal S2048x2304 .f32) (r : Fin 2048) (n : Fin 2304) :
    (k0_pay2 W S X A (ix2 r n) : EReal) = A (ix2 r n) + ∑ k : Fin 256, X (ix2 r k) * (W (ix2 n k) * S (ix2 n (0 : Fin 1))) := by
  rw [pay2_eq, addf_apply, shapeCast_self A, matmul_zero_apply]
  refine congrArg (A (ix2 r n) + ·) (Finset.sum_congr rfl fun k _ => ?_)
  rw [truncf_apply, truncf_apply, shapeCast_self X, mulf_apply, broadcastTo_a1_ab_apply]

/-- The bias value as one expression of its two operands: the block's contents plus the bias row broadcast over rows. -/
theorem pay3_eq (A : Vec Ideal S2048x2304 .f32) (B : Vec Ideal S1x2304 .f32) :
    k0_pay3 A B
      = addf (shapeCast S2048x2304 A shapeCasts_S2048x2304_S2048x2304)
          (broadcastTo S2048x2304 B broadcasts_S1x2304_S2048x2304) := rfl

/-- The bias store at entry (r, n): what the buffer held plus the bias of column n. -/
theorem pay3_apply (A : Vec Ideal S2048x2304 .f32) (B : Vec Ideal S1x2304 .f32) (r : Fin 2048) (n : Fin 2304) :
    (k0_pay3 A B (ix2 r n) : EReal) = A (ix2 r n) + B (ix2 (0 : Fin 1) n) := by
  rw [pay3_eq, addf_apply, shapeCast_self A, broadcastTo_1b_ab_apply]

end Cert.KernelIdeal.Pay
end
-- ==== Proof.BodyRunI.lean ====
import proofs.«169078_j8504035246563_1_alg».proof.Proof.Gen.KernelIdeal.Skeleton
import Idealize.ShloMosaic.Lib.Pipeline.FrameBody
import Idealize.ShloMosaic.Lib.Pipeline.Value
import Idealize.ShloMosaic.Lib.Tactic

/-! # The kernel body's runs

The body of the dequantising matrix product, at one grid point, on whole staging buffers held at named contents: what
it leaves in the output block, in each of its three control cases. The contraction axis is the grid's last (sixteen
blocks): at its first block the output block is reset to zero before the block's product is added; at a middle block
the product is added to what the block held; at its last block the bias row is added after the product. Every load
and store of the body is of a whole buffer, so a load reads the buffer's contents and a store replaces them. -/

set_option synthInstance.maxSize 4096
set_option maxRecDepth 16384

noncomputable section
namespace Cert.KernelIdeal.BodyRun
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ

/-! ## The two guards

The body branches on the contraction coordinate `k` twice, each time through the same chain of scalar operations: the
comparison `k = n` as a bit, widened to a word, compared against zero. On the sixteen values `k` takes the chain holds
exactly when `k = n`. -/

/-- The guard of the reset, as the body computes it from the contraction coordinate. -/
abbrev atFirst (k : Nat) : Prop :=
  (Scalar.cmpi .ne (Scalar.extui (Scalar.cmpi .eq (BitVec.ofNat 32 k) 0#32)) 0#32) = 1#1

/-- The guard of the bias addition, as the body computes it from the contraction coordinate. -/
abbrev atLast (k : Nat) : Prop :=
  (Scalar.cmpi .ne (Scalar.extui (Scalar.cmpi .eq (BitVec.ofNat 32 k) 15#32)) 0#32) = 1#1

/-- The reset's guard holds at the first block only. -/
theorem atFirst_iff : ∀ k : Fin 16, atFirst k.val ↔ k.val = 0 := by decide +kernel

/-- The bias addition's guard holds at the last block only. -/
theorem atLast_iff : ∀ k : Fin 16, atLast k.val ↔ k.val = 15 := by decide +kernel

/-- The zero offsets of a whole-buffer access, as the constant function. -/
theorem offsets_zero : (![0, 0] : Fin 2 → Nat) = fun _ => 0 := funext fun a => by fin_cases a <;> rfl

/-! ## What the buffers hold -/

/-- What the five staging buffers hold, as one separating conjunction (x block, weight block, scale column, bias row, output block). -/
def held (c : Dev nD) (a3 : Memref sig .tc .vmem S2048x256 .f32) (a4 : Memref sig .tc .vmem S2304x256 .f32) (a5 : Memref sig .tc .vmem S2304x1 .f32) (a6 : Memref sig .tc .vmem S1x2304 .f32) (a7 : Memref sig .tc .vmem S2048x2304 .f32)
    (X0 : Vec F S2048x256 .f32) (X1 : Vec F S2304x256 .f32) (X2 : Vec F S2304x1 .f32) (X3 : Vec F S1x2304 .f32) (X4 : Vec F S2048x2304 .f32) : sProp 𝕄 :=
  iprop(owns (c : Thread nD τ) a3 fullShare X0 ∗ owns (c : Thread nD τ) a4 fullShare X1 ∗ owns (c : Thread nD τ) a5 fullShare X2 ∗ owns (c : Thread nD τ) a6 fullShare X3 ∗ owns (c : Thread nD τ) a7 fullShare X4)

/-! ## The three runs

In each case the two guards are decided from the hypothesis on `k`, the body is run on the buffers' raw contents (for a
whole buffer, the contents that read the named ones), and the output buffer is read back: its contents are the run's
stores over what it held, every store covers it, so it reads the last store's payload; and each value that payload was
computed from is a whole-buffer load, which reads the named contents — or, where the load follows a store of the same
run, that store's payload. -/

set_option maxHeartbeats 1000000 in
/-- First block of the contraction (k = 0): the accumulator is reset, then the block's product is added. -/
theorem run_first (c : Dev nD) (E : Set ℕ) (i : grid0.Coords) (hk : (i 2).val = 0)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay2 X1 X2 X0 (k0_pay1 (F := F))) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : atFirst (i 2).val := (atFirst_iff ⟨_, hlt⟩).mpr hk
  have hc1 : ¬ atLast (i 2).val := fun h => by
    have h15 : (i 2).val = 15 := (atLast_iff ⟨_, hlt⟩).mp h
    omega
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the product's operands are the three input blocks; the accumulator it adds to is the zero block the reset stored
  simp only [View.readAt_eq_ld, Memref.IsWhole.read_unread, View.ld_unit_zero (S := S2048x256) offsets_zero,
    View.ld_unit_zero (S := S2304x256) offsets_zero, View.ld_unit_zero (S := S2304x1) offsets_zero,
    View.readCov_unit_zero (S := S2048x2304) _ offsets_zero]

set_option maxHeartbeats 1000000 in
/-- A middle block (0 < k < 15): the block's product is added to what the buffer held. -/
theorem run_mid (c : Dev nD) (E : Set ℕ) (i : grid0.Coords) (hk0 : (i 2).val ≠ 0) (hk15 : (i 2).val ≠ 15)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay2 X1 X2 X0 X4) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : ¬ atFirst (i 2).val := fun h => hk0 ((atFirst_iff ⟨_, hlt⟩).mp h)
  have hc1 : ¬ atLast (i 2).val := fun h => hk15 ((atLast_iff ⟨_, hlt⟩).mp h)
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the product's operands are the three input blocks; the accumulator it adds to is what the output block held
  simp only [View.readAt_eq_ld, Memref.IsWhole.read_unread, View.ld_unit_zero (S := S2048x256) offsets_zero,
    View.ld_unit_zero (S := S2304x256) offsets_zero, View.ld_unit_zero (S := S2304x1) offsets_zero, View.ld_unit_zero (S := S2048x2304) offsets_zero]

set_option maxHeartbeats 1000000 in
/-- The last block (k = 15): the product is added, then the bias row. -/
theorem run_last (c : Dev nD) (E : Set ℕ) (i : grid0.Coords) (hk : (i 2).val = 15)
    (a3 : Memref sig .tc .vmem S2048x256 .f32) (h3 : a3.IsWhole) (a4 : Memref sig .tc .vmem S2304x256 .f32) (h4 : a4.IsWhole) (a5 : Memref sig .tc .vmem S2304x1 .f32) (h5 : a5.IsWhole) (a6 : Memref sig .tc .vmem S1x2304 .f32) (h6 : a6.IsWhole) (a7 : Memref sig .tc .vmem S2048x2304 .f32) (h7 : a7.IsWhole)
    (X0 : Vec F S2048x256 .f32) (X1 : Vec F S2304x256 .f32) (X2 : Vec F S2304x1 .f32) (X3 : Vec F S1x2304 .f32) (X4 : Vec F S2048x2304 .f32) (K : PUnit → sProp 𝕄) :
    iprop(held c a3 a4 a5 a6 a7 X0 X1 X2 X3 X4 ∗ (held c a3 a4 a5 a6 a7 X0 X1 X2 X3 (k0_pay3 (k0_pay2 X1 X2 X0 X4) X3) -∗ K ⟨⟩))
      ⊢ wp frame (wpE (defs₀ (F := F)) Variants.none c none) E (cc0__matmul_dequant_kernel i a3 h3 a4 h4 a5 h5 a6 h6 a7 h7) K := by
  have hlt : (i 2).val < 16 := (i 2).isLt
  have hc0 : ¬ atFirst (i 2).val := fun h => by
    have h0 : (i 2).val = 0 := (atFirst_iff ⟨_, hlt⟩).mp h
    omega
  have hc1 : atLast (i 2).val := (atLast_iff ⟨_, hlt⟩).mpr hk
  simp only [cc0__matmul_dequant_kernel_eq_skeleton]; unfold cc0__matmul_dequant_kernel_skel
  unfold held owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := h3.eq_unread hf0; obtain rfl := h4.eq_unread hf1; obtain rfl := h5.eq_unread hf2
  obtain rfl := h6.eq_unread hf3; obtain rfl := h7.eq_unread hf4
  sl_exec (disch := first | exact hc0 | exact hc1)
  sl_step
  iapply Hk
  -- the four inputs are held as they were: each still reads its contents
  isplitl [H0]
  · iexists _; isplitr
    · ipureintro; exact h3.read_unread _
    · iexact H0
  isplitl [H1]
  · iexists _; isplitr
    · ipureintro; exact h4.read_unread _
    · iexact H1
  isplitl [H2]
  · iexists _; isplitr
    · ipureintro; exact h5.read_unread _
    · iexact H2
  isplitl [H3]
  · iexists _; isplitr
    · ipureintro; exact h6.read_unread _
    · iexact H3
  -- the output buffer: what it reads after the run's stores is the last store's payload, every store covering it
  iexists _; isplitr
  rotate_left
  · iexact H4
  ipureintro
  sl_unfold_words
  refine (View.read_writes_eq_canon _ _ _ (fun y => ?_)).trans ?_
  · refine ⟨_, List.mem_cons_self .., ?_⟩
    exact View.mem_set_unit_zero (S := S2048x2304) offsets_zero inb_S2048x2304_S2048x2304_0_0 y
  rw [View.canon_cons_unit_zero (S := S2048x2304) offsets_zero]
  -- the bias is added to the block the product's store left, itself computed from the input blocks and what the output block held
  simp only [View.readAt_eq_ld, Memref.IsWhole.read_unread, View.ld_unit_zero (S := S2048x256) offsets_zero,
    View.ld_unit_zero (S := S2304x256) offsets_zero, View.ld_unit_zero (S := S2304x1) offsets_zero, View.ld_unit_zero (S := S2048x2304) offsets_zero,
    View.ld_unit_zero (S := S1x2304) offsets_zero, View.readCov_unit_zero (S := S2048x2304) _ offsets_zero]

end Cert.KernelIdeal.BodyRun
end
-- ==== Proof.SchedI.lean ====
/-
  The schedule of the one pallas_call, in numbers.

  The grid has 4 × 5 × 16 points; point t = 80 i + 16 j + k is row tile i (2048 rows of the 8192), column tile j
  (2304 of the 11008 output channels: the fifth tile holds the last 1792) and feature block k (256 of the 4096).
  The x block depends on (i, k), the weight block on (j, k), the scale column and the bias row on j, the output block
  on (i, j).  Every fact here is decided over the 320 points.
-/
import proofs.«169078_j8504035246563_1_alg».proof.Proof.Gen.KernelIdeal.Points
import proofs.«169078_j8504035246563_1_alg».proof.Proof.Gen.KernelIdeal.Launch

set_option maxRecDepth 16384

noncomputable section

namespace Cert.KernelIdeal.Sched

open Cert.KernelIdeal Cert.KernelIdeal.Gen
open Idealize.ShloMosaic Idealize.ShloMosaic.TcCoe
open Idealize.SL Idealize.SL.Sem

/-- There are 320 points. -/
theorem t_lt (t : Fin cfg0.N) : t.val < 320 := lt_of_lt_of_eq t.isLt N_0

/-- The coordinates of point t are (t / 80, t / 16 mod 5, t mod 16). -/
theorem coords_val : ∀ t : Fin cfg0.N,
    (grid0.coords t 0).val = t.val / 80 ∧ (grid0.coords t 1).val = t.val / 16 % 5 ∧ (grid0.coords t 2).val = t.val % 16 :=
  (by decide +kernel : ∀ t : Fin grid0.N,
    (grid0.coords t 0).val = t.val / 80 ∧ (grid0.coords t 1).val = t.val / 16 % 5 ∧ (grid0.coords t 2).val = t.val % 16)

/-- The block index of each window at point t. -/
theorem index0 : ∀ t : Fin cfg0.N, win0_0.index t 0 = t.val / 80 ∧ win0_0.index t 1 = t.val % 16 :=
  (by decide +kernel : ∀ t : Fin grid0.N, win0_0.index t 0 = t.val / 80 ∧ win0_0.index t 1 = t.val % 16)
theorem index1 : ∀ t : Fin cfg0.N, win0_1.index t 0 = t.val / 16 % 5 ∧ win0_1.index t 1 = t.val % 16 :=
  (by decide +kernel : ∀ t : Fin grid0.N, win0_1.index t 0 = t.val / 16 % 5 ∧ win0_1.index t 1 = t.val % 16)
theorem index2 : ∀ t : Fin cfg0.N, win0_2.index t 0 = t.val / 16 % 5 ∧ win0_2.index t 1 = 0 :=
  (by decide +kernel : ∀ t : Fin grid0.N, win0_2.index t 0 = t.val / 16 % 5 ∧ win0_2.index t 1 = 0)
theorem index3 : ∀ t : Fin cfg0.N, win0_3.index t 0 = 0 ∧ win0_3.index t 1 = t.val / 16 % 5 :=
  (by decide +kernel : ∀ t : Fin grid0.N, win0_3.index t 0 = 0 ∧ win0_3.index t 1 = t.val / 16 % 5)
theorem index4 : ∀ t : Fin cfg0.N, win0_4.index t 0 = t.val / 80 ∧ win0_4.index t 1 = t.val / 16 % 5 :=
  (by decide +kernel : ∀ t : Fin grid0.N, win0_4.index t 0 = t.val / 80 ∧ win0_4.index t 1 = t.val / 16 % 5)

/-- How many columns of its 2304 the column tile of point t has inside the 11008: all of them but for the fifth tile. -/
def ncols (t : Fin cfg0.N) : Nat := if t.val / 16 % 5 = 4 then 1792 else 2304

theorem ncols_le (t : Fin cfg0.N) : t.val / 16 % 5 * 2304 + ncols t ≤ 11008 := by
  unfold ncols; split <;> omega

theorem ncols_reach (t : Fin cfg0.N) : ncols t = 2304 ∨ t.val / 16 % 5 * 2304 + ncols t = 11008 := by
  unfold ncols; split
  · right; omega
  · left; rfl

/-- The part of each window's block that lies inside its array, at point t. -/
theorem xsize1 : ∀ t : Fin cfg0.N, win0_1.xsize (grid0.coords t) 0 = ncols t ∧ win0_1.xsize (grid0.coords t) 1 = 256 :=
  (by decide +kernel : ∀ t : Fin grid0.N, win0_1.xsize (grid0.coords t) 0 = (if t.val / 16 % 5 = 4 then 1792 else 2304) ∧ win0_1.xsize (grid0.coords t) 1 = 256)
theorem xsize2 : ∀ t : Fin cfg0.N, win0_2.xsize (grid0.coords t) 0 = ncols t ∧ win0_2.xsize (grid0.coords t) 1 = 1 :=
  (by decide +kernel : ∀ t : Fin grid0.N, win0_2.xsize (grid0.coords t) 0 = (if t.val / 16 % 5 = 4 then 1792 else 2304) ∧ win0_2.xsize (grid0.coords t) 1 = 1)
theorem xsize3 : ∀ t : Fin cfg0.N, win0_3.xsize (grid0.coords t) 0 = 1 ∧ win0_3.xsize (grid0.coords t) 1 = ncols t :=
  (by decide +kernel : ∀ t : Fin grid0.N, win0_3.xsize (grid0.coords t) 0 = 1 ∧ win0_3.xsize (grid0.coords t) 1 = (if t.val / 16 % 5 = 4 then 1792 else 2304))
theorem xsize4 : ∀ t : Fin cfg0.N, win0_4.xsize (grid0.coords t) 0 = 2048 ∧ win0_4.xsize (grid0.coords t) 1 = ncols t :=
  (by decide +kernel : ∀ t : Fin grid0.N, win0_4.xsize (grid0.coords t) 0 = 2048 ∧ win0_4.xsize (grid0.coords t) 1 = (if t.val / 16 % 5 = 4 then 1792 else 2304))

/-- The cuts of a clipped window are a function of its block index. -/
theorem clip1 (t t' : Fin cfg0.N) (h : (cfg0.win 1).index t = (cfg0.win 1).index t') :
    (cfg0.win 1).clip (cfg0.grid.coords t) = (cfg0.win 1).clip (cfg0.grid.coords t') := by
  funext a
  show Pipeline.Clip.of (win0_1.index t a) _ _ = Pipeline.Clip.of (win0_1.index t' a) _ _
  rw [show win0_1.index t a = win0_1.index t' a from congrFun h a]
theorem clip2 (t t' : Fin cfg0.N) (h : (cfg0.win 2).index t = (cfg0.win 2).index t') :
    (cfg0.win 2).clip (cfg0.grid.coords t) = (cfg0.win 2).clip (cfg0.grid.coords t') := by
  funext a
  show Pipeline.Clip.of (win0_2.index t a) _ _ = Pipeline.Clip.of (win0_2.index t' a) _ _
  rw [show win0_2.index t a = win0_2.index t' a from congrFun h a]
theorem clip3 (t t' : Fin cfg0.N) (h : (cfg0.win 3).index t = (cfg0.win 3).index t') :
    (cfg0.win 3).clip (cfg0.grid.coords t) = (cfg0.win 3).clip (cfg0.grid.coords t') := by
  funext a
  show Pipeline.Clip.of (win0_3.index t a) _ _ = Pipeline.Clip.of (win0_3.index t' a) _ _
  rw [show win0_3.index t a = win0_3.index t' a from congrFun h a]

end Cert.KernelIdeal.Sched

end
-- ==== Proof.BlocksI.lean ====
/-
  The windows' blocks by coordinates, and the proof data over them.

  At point t = 80 i + 16 j + k the body finds: the x block, rows 2048 i … of the flattened input and features 256 k …;
  the weight block, rows 2304 j … of the weight and the same features; the scale column and the bias row of the same
  channels.  For the fifth column tile only the first 1792 channels exist: past them a staging buffer holds words
  nothing names, which the blocks below fill with zero.  What is stated of a clipped window is always its part inside
  the array (its cut), and that part is the array's block.
-/
import proofs.«169078_j8504035246563_1_alg».proof.Proof.Gen.KernelIdeal.Frame
import proofs.«169078_j8504035246563_1_alg».proof.Proof.SchedI
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Sched
open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-- The arrays the windows stage, as the region finds them: the flattened input, the weight, its scale, the bias. -/
abbrev arrX (c : Dev nD) : S8192x4096.Idx → Elt F .f32 := V m c main_v0
abbrev arrW (c : Dev nD) : S11008x4096.Idx → Elt F .f32 := V m c main_arg1
abbrev arrS (c : Dev nD) : S11008x1.Idx → Elt F .f32 := V m c main_arg2
abbrev arrB (c : Dev nD) : S1x11008.Idx → Elt F .f32 := V m c main_arg3

/-- The x block at point t. -/
def aX (c : Dev nD) (t : Fin cfg0.N) : Vec F S2048x256 .f32 := fun j =>
  arrX m c (ix2 ⟨t.val / 80 * 2048 + (j 0).val, by have := t_lt t; have := idx2_lt0 j; omega⟩
    ⟨t.val % 16 * 256 + (j 1).val, by have := idx2_lt1 j; omega⟩)

/-- The weight block at point t, zero past the last channel. -/
def aW (c : Dev nD) (t : Fin cfg0.N) : Vec F S2304x256 .f32 := fun j =>
  if h : t.val / 16 % 5 * 2304 + (j 0).val < 11008 then
    arrW m c (ix2 ⟨t.val / 16 % 5 * 2304 + (j 0).val, h⟩ ⟨t.val % 16 * 256 + (j 1).val, by have := idx2_lt1 j; omega⟩)
  else Scalar.ofBits .f32 0#32

/-- The scale column at point t, zero past the last channel. -/
def aS (c : Dev nD) (t : Fin cfg0.N) : Vec F S2304x1 .f32 := fun j =>
  if h : t.val / 16 % 5 * 2304 + (j 0).val < 11008 then
    arrS m c (ix2 ⟨t.val / 16 % 5 * 2304 + (j 0).val, h⟩ (0 : Fin 1))
  else Scalar.ofBits .f32 0#32

/-- The bias row at point t, zero past the last channel. -/
def aB (c : Dev nD) (t : Fin cfg0.N) : Vec F S1x2304 .f32 := fun j =>
  if h : t.val / 16 % 5 * 2304 + (j 1).val < 11008 then
    arrB m c (ix2 (0 : Fin 1) ⟨t.val / 16 % 5 * 2304 + (j 1).val, h⟩)
  else Scalar.ofBits .f32 0#32

theorem aW_of_lt (c : Dev nD) (t : Fin cfg0.N) (j : S2304x256.Idx) (h : t.val / 16 % 5 * 2304 + (j 0).val < 11008) :
    aW m c t j = arrW m c (ix2 ⟨t.val / 16 % 5 * 2304 + (j 0).val, h⟩ ⟨t.val % 16 * 256 + (j 1).val, by have := idx2_lt1 j; omega⟩) :=
  dif_pos h
theorem aS_of_lt (c : Dev nD) (t : Fin cfg0.N) (j : S2304x1.Idx) (h : t.val / 16 % 5 * 2304 + (j 0).val < 11008) :
    aS m c t j = arrS m c (ix2 ⟨t.val / 16 % 5 * 2304 + (j 0).val, h⟩ (0 : Fin 1)) :=
  dif_pos h
theorem aB_of_lt (c : Dev nD) (t : Fin cfg0.N) (j : S1x2304.Idx) (h : t.val / 16 % 5 * 2304 + (j 1).val < 11008) :
    aB m c t j = arrB m c (ix2 (0 : Fin 1) ⟨t.val / 16 % 5 * 2304 + (j 1).val, h⟩) :=
  dif_pos h

/-! ## Each block is its array's block -/

/-- The x window is not clipped: its block is the array's block, entry by entry. -/
theorem aX_eq (c : Dev nD) (t : Fin cfg0.N) : aX m c t = iblk m c 0 t := by
  funext y
  obtain ⟨hi0, hi1⟩ := index0 t
  unfold aX iblk
  rw [View.read_apply]
  show arrX m c _ = arrX m c _
  congr 1
  funext a
  apply Fin.ext
  match a with
  | ⟨0, _⟩ => show t.val / 80 * 2048 + (y 0).val = win0_0.index t 0 * 2048 + 1 * (y 0).val; rw [hi0]; omega
  | ⟨1, _⟩ => show t.val % 16 * 256 + (y 1).val = win0_0.index t 1 * 256 + 1 * (y 1).val; rw [hi1]; omega

/-- The part of the weight block inside the array is the array's block. -/
theorem cut_aW (c : Dev nD) (t : Fin cfg0.N) : win0_1.cut (grid0.coords t) (aW m c t) = iblk m c 1 t := by
  funext y
  obtain ⟨hi0, hi1⟩ := index1 t
  obtain ⟨hx0, hx1⟩ := xsize1 t
  have hy0 : (y 0).val < win0_1.xsize (grid0.coords t) 0 := (y 0).isLt
  have hy1 : (y 1).val < win0_1.xsize (grid0.coords t) 1 := (y 1).isLt
  rw [hx0] at hy0
  rw [hx1] at hy1
  have hle := ncols_le t
  have hin : t.val / 16 % 5 * 2304 + ((win0_1.xinj (grid0.coords t) y) 0).val < 11008 := by
    show t.val / 16 % 5 * 2304 + (y 0).val < 11008
    omega
  refine (aW_of_lt m c t (win0_1.xinj (grid0.coords t) y) hin).trans ?_
  unfold iblk
  rw [View.read_apply]
  show arrW m c _ = arrW m c _
  congr 1
  funext a
  apply Fin.ext
  match a with
  | ⟨0, _⟩ => show t.val / 16 % 5 * 2304 + (y 0).val = win0_1.index t 0 * 2304 + 1 * (y 0).val; rw [hi0]; omega
  | ⟨1, _⟩ => show t.val % 16 * 256 + (y 1).val = win0_1.index t 1 * 256 + 1 * (y 1).val; rw [hi1]; omega

/-- The part of the scale column inside the array is the array's block. -/
theorem cut_aS (c : Dev nD) (t : Fin cfg0.N) : win0_2.cut (grid0.coords t) (aS m c t) = iblk m c 2 t := by
  funext y
  obtain ⟨hi0, hi1⟩ := index2 t
  obtain ⟨hx0, hx1⟩ := xsize2 t
  have hy0 : (y 0).val < win0_2.xsize (grid0.coords t) 0 := (y 0).isLt
  have hy1 : (y 1).val < win0_2.xsize (grid0.coords t) 1 := (y 1).isLt
  rw [hx0] at hy0
  rw [hx1] at hy1
  have hle := ncols_le t
  have hin : t.val / 16 % 5 * 2304 + ((win0_2.xinj (grid0.coords t) y) 0).val < 11008 := by
    show t.val / 16 % 5 * 2304 + (y 0).val < 11008
    omega
  refine (aS_of_lt m c t (win0_2.xinj (grid0.coords t) y) hin).trans ?_
  unfold iblk
  rw [View.read_apply]
  show arrS m c _ = arrS m c _
  congr 1
  funext a
  apply Fin.ext
  match a with
  | ⟨0, _⟩ => show t.val / 16 % 5 * 2304 + (y 0).val = win0_2.index t 0 * 2304 + 1 * (y 0).val; rw [hi0]; omega
  | ⟨1, _⟩ => show 0 = win0_2.index t 1 * 1 + 1 * (y 1).val; rw [hi1]; omega

/-- The part of the bias row inside the array is the array's block. -/
theorem cut_aB (c : Dev nD) (t : Fin cfg0.N) : win0_3.cut (grid0.coords t) (aB m c t) = iblk m c 3 t := by
  funext y
  obtain ⟨hi0, hi1⟩ := index3 t
  obtain ⟨hx0, hx1⟩ := xsize3 t
  have hy0 : (y 0).val < win0_3.xsize (grid0.coords t) 0 := (y 0).isLt
  have hy1 : (y 1).val < win0_3.xsize (grid0.coords t) 1 := (y 1).isLt
  rw [hx0] at hy0
  rw [hx1] at hy1
  have hle := ncols_le t
  have hin : t.val / 16 % 5 * 2304 + ((win0_3.xinj (grid0.coords t) y) 1).val < 11008 := by
    show t.val / 16 % 5 * 2304 + (y 1).val < 11008
    omega
  refine (aB_of_lt m c t (win0_3.xinj (grid0.coords t) y) hin).trans ?_
  unfold iblk
  rw [View.read_apply]
  show arrB m c _ = arrB m c _
  congr 1
  funext a
  apply Fin.ext
  match a with
  | ⟨0, _⟩ => show 0 = win0_3.index t 0 * 1 + 1 * (y 0).val; rw [hi0]; omega
  | ⟨1, _⟩ => show t.val / 16 % 5 * 2304 + (y 1).val = win0_3.index t 1 * 2304 + 1 * (y 1).val; rw [hi1]; omega

/-! ## The proof data -/

/-- The proof data of the pipeline on core c, for any account acc of what the output's staging buffer holds after
    each point: the arrays as the region finds them; after the body each input's buffer at its block; the output's at
    acc; the class's invariant; nothing owed; full shares. -/
def mkDat (c : Dev nD) (acc : Fin cfg0.N → Vec F S2048x2304 .f32) : Dat τ (Elt F) Unit ℕ (UR sig nD τ) ℕ cfg0 c where
  A w := V m c (Pipeline.arrRef spec0 w)
  after w t := match w with
    | ⟨0, _⟩ => iblk m c 0 t
    | ⟨1, _⟩ => aW m c t
    | ⟨2, _⟩ => aS m c t
    | ⟨3, _⟩ => aB m c t
    | ⟨4, _⟩ => acc t
  Φ _ := Pipeline.ΦA spec0 c
  q _ := fullShare
  owed _ := 0

variable (c : Dev nD) (acc : Fin cfg0.N → Vec F S2048x2304 .f32)

theorem A_eq (w : Fin cfg0.W) : (mkDat m c acc).A w = V m c (Pipeline.arrRef spec0 w) := by
  dsimp only [mkDat]

theorem after0 (t : Fin cfg0.N) : (mkDat m c acc).after 0 t = iblk m c 0 t := by dsimp only [mkDat]
theorem after1 (t : Fin cfg0.N) : (mkDat m c acc).after 1 t = aW m c t := by dsimp only [mkDat]
theorem after2 (t : Fin cfg0.N) : (mkDat m c acc).after 2 t = aS m c t := by dsimp only [mkDat]
theorem after3 (t : Fin cfg0.N) : (mkDat m c acc).after 3 t = aB m c t := by dsimp only [mkDat]
theorem after4 (t : Fin cfg0.N) : (mkDat m c acc).after 4 t = acc t := by dsimp only [mkDat]

/-! ## What the body finds in the inputs' staging buffers -/

/-- The x buffer holds its block at every point. -/
theorem before0 (t : Fin cfg0.N) (d) : (mkDat m c acc).before 0 t d = iblk m c 0 t :=
  before0_0_of m (mkDat m c acc) (A_eq m c acc 0) (after0 m c acc) t d

/-- The weight buffer holds the array's block on the part inside the array, whatever it held elsewhere. -/
theorem before1 (t : Fin cfg0.N) (d) : (mkDat m c acc).before 1 t d = win0_1.fill (grid0.coords t) d (iblk m c 1 t) :=
  ((mkDat m c acc).before_in_eq_fetched 1 rfl (fun _ => rfl) clip1
    (fun t => by rw [after1]; unfold Dat.blockOf; rw [A_eq]; exact cut_aW m c t) t d).trans
    (by unfold Dat.fetched Dat.blockOf iblk; rw [A_eq]; try rfl)

/-- So does the scale buffer, fetched at this point or carried from the point before. -/
theorem before2 (t : Fin cfg0.N) (d) : (mkDat m c acc).before 2 t d = win0_2.fill (grid0.coords t) d (iblk m c 2 t) :=
  ((mkDat m c acc).before_in_eq_fetched 2 rfl (fun _ => rfl) clip2
    (fun t => by rw [after2]; unfold Dat.blockOf; rw [A_eq]; exact cut_aS m c t) t d).trans
    (by unfold Dat.fetched Dat.blockOf iblk; rw [A_eq]; try rfl)

/-- And the bias buffer. -/
theorem before3 (t : Fin cfg0.N) (d) : (mkDat m c acc).before 3 t d = win0_3.fill (grid0.coords t) d (iblk m c 3 t) :=
  ((mkDat m c acc).before_in_eq_fetched 3 rfl (fun _ => rfl) clip3
    (fun t => by rw [after3]; unfold Dat.blockOf; rw [A_eq]; exact cut_aB m c t) t d).trans
    (by unfold Dat.fetched Dat.blockOf iblk; rw [A_eq]; try rfl)

/-! ## Contents that agree on the part inside the array -/

section Cut
variable {G : Pipeline.Grid} (w : Window sig G) {α : Type}

/-- Two contents of a block whose parts inside the array agree, agree at every entry the transfers move. -/
theorem eq_of_cut_eq (i : G.Coords) {X X' : w.block.Idx → α} (h : w.cut i X = w.cut i X') (j : w.block.Idx)
    (hj : w.moved i j = true) : X j = X' j := by
  have e : w.xinj i (fun a => ⟨(j a).val, (w.moved_iff i j).mp hj a⟩) = j := funext fun a => Fin.ext rfl
  have h' := congrFun h (fun a => ⟨(j a).val, (w.moved_iff i j).mp hj a⟩)
  exact (congrArg X e).symm.trans (h'.trans (congrArg X' e))

/-- What a buffer holds after it was filled, at coordinates i', with the part inside the array of X, has at
    coordinates i with the same cuts the part inside the array of X. -/
theorem cut_fill_cut (i i' : G.Coords) (hc : w.clip i' = w.clip i) (d X : w.block.Idx → α) :
    w.cut i (w.fill i' d (w.cut i' X)) = w.cut i X := by
  funext y
  have hm : w.moved i' (w.xinj i y) = true := by
    have : w.moved i' (w.xinj i y) = w.moved i (w.xinj i y) := by unfold Window.moved; rw [hc]
    rw [this]; exact w.moved_xinj i y
  show w.fill i' d (w.cut i' X) (w.xinj i y) = X (w.xinj i y)
  unfold Window.fill
  rw [dif_pos hm]

end Cut

end Cert.KernelIdeal.Blocks

end
-- ==== Proof.AccI.lean ====
/-
  What the output's staging buffer holds, point by point, and the exact body obligation (extended reals).

  Within one (row tile, column tile) pair the sixteen feature blocks visit one output block: the first resets it to
  zero and adds its product, each later one adds its product, the last also adds the bias row.  On the extended reals
  an entry of a product depends on one row of the weight block and one entry of the scale column, so the entries
  inside the array do not depend on what the clipped buffers hold past the last channel: the account below fills
  those with zero, and agrees with what the body really leaves wherever the write-back reads.
-/
import proofs.«169078_j8504035246563_1_alg».proof.Proof.PayI
import proofs.«169078_j8504035246563_1_alg».proof.Proof.BodyRunI
import proofs.«169078_j8504035246563_1_alg».proof.Proof.BlocksI
import Idealize.ShloMosaic.Lib.Pipeline.FrameSuffix
import Idealize.ShloMosaic.Lib.Tactic

set_option maxRecDepth 16384

noncomputable section

open scoped BigOperators

namespace Cert.KernelIdeal.Acc

open Cert.KernelIdeal Cert.KernelIdeal.Gen Cert.KernelIdeal.Sched Cert.KernelIdeal.Blocks Cert.KernelIdeal.BodyRun Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The stored values depend only on the parts inside the arrays -/

/-- The accumulating store, on the output block's part inside the array, depends on the weight block, the scale column
    and the previous contents only through their parts inside the arrays. -/
theorem pay2_cut_congr (t : Fin cfg0.N) (W W' : Vec Ideal S2304x256 .f32) (S S' : Vec Ideal S2304x1 .f32)
    (X : Vec Ideal S2048x256 .f32) (A A' : Vec Ideal S2048x2304 .f32)
    (hW : win0_1.cut (grid0.coords t) W = win0_1.cut (grid0.coords t) W')
    (hS : win0_2.cut (grid0.coords t) S = win0_2.cut (grid0.coords t) S')
    (hA : win0_4.cut (grid0.coords t) A = win0_4.cut (grid0.coords t) A') :
    win0_4.cut (grid0.coords t) (k0_pay2 W S X A) = win0_4.cut (grid0.coords t) (k0_pay2 W' S' X A') := by
  funext y
  obtain ⟨hx40, hx41⟩ := xsize4 t
  obtain ⟨hx10, hx11⟩ := xsize1 t
  obtain ⟨hx20, hx21⟩ := xsize2 t
  have hy0 : (y 0).val < win0_4.xsize (grid0.coords t) 0 := (y 0).isLt
  have hy1 : (y 1).val < win0_4.xsize (grid0.coords t) 1 := (y 1).isLt
  rw [hx40] at hy0
  rw [hx41] at hy1
  have hnc : ncols t ≤ 2304 := by unfold ncols; split <;> omega
  let r : Fin 2048 := ⟨(y 0).val, hy0⟩
  let n : Fin 2304 := ⟨(y 1).val, lt_of_lt_of_le hy1 hnc⟩
  have hxy : win0_4.xinj (grid0.coords t) y = ix2 r n := by
    funext a; match a with
    | ⟨0, _⟩ => rfl
    | ⟨1, _⟩ => rfl
  show k0_pay2 W S X A (win0_4.xinj (grid0.coords t) y) = k0_pay2 W' S' X A' (win0_4.xinj (grid0.coords t) y)
  have eA : A (ix2 r n) = A' (ix2 r n) := by rw [← hxy]; exact congrFun hA y
  have eW : ∀ k : Fin 256, W (ix2 n k) = W' (ix2 n k) := fun k =>
    eq_of_cut_eq win0_1 (grid0.coords t) hW (ix2 n k) ((win0_1.moved_iff _ _).mpr fun a => by
      match a with
      | ⟨0, _⟩ => show n.val < win0_1.xsize (grid0.coords t) 0; rw [hx10]; exact hy1
      | ⟨1, _⟩ => show k.val < win0_1.xsize (grid0.coords t) 1; rw [hx11]; exact k.isLt)
  have eS : S (ix2 n (0 : Fin 1)) = S' (ix2 n (0 : Fin 1)) :=
    eq_of_cut_eq win0_2 (grid0.coords t) hS (ix2 n (0 : Fin 1)) ((win0_2.moved_iff _ _).mpr fun a => by
      match a with
      | ⟨0, _⟩ => show n.val < win0_2.xsize (grid0.coords t) 0; rw [hx20]; exact hy1
      | ⟨1, _⟩ => show (0 : Nat) < win0_2.xsize (grid0.coords t) 1; rw [hx21]; exact Nat.one_pos)
  rw [hxy, pay2_apply, pay2_apply, eA, eS]
  exact congrArg (A' (ix2 r n) + ·) (Finset.sum_congr rfl fun k _ => by rw [eW k])

/-- The bias store likewise, through the bias row's part inside the array. -/
theorem pay3_cut_congr (t : Fin cfg0.N) (A A' : Vec Ideal S2048x2304 .f32) (B B' : Vec Ideal S1x2304 .f32)
    (hA : win0_4.cut (grid0.coords t) A = win0_4.cut (grid0.coords t) A')
    (hB : win0_3.cut (grid0.coords t) B = win0_3.cut (grid0.coords t) B') :
    win0_4.cut (grid0.coords t) (k0_pay3 A B) = win0_4.cut (grid0.coords t) (k0_pay3 A' B') := by
  funext y
  obtain ⟨hx40, hx41⟩ := xsize4 t
  obtain ⟨hx30, hx31⟩ := xsize3 t
  have hy0 : (y 0).val < win0_4.xsize (grid0.coords t) 0 := (y 0).isLt
  have hy1 : (y 1).val < win0_4.xsize (grid0.coords t) 1 := (y 1).isLt
  rw [hx40] at hy0
  rw [hx41] at hy1
  have hnc : ncols t ≤ 2304 := by unfold ncols; split <;> omega
  let r : Fin 2048 := ⟨(y 0).val, hy0⟩
  let n : Fin 2304 := ⟨(y 1).val, lt_of_lt_of_le hy1 hnc⟩
  have hxy : win0_4.xinj (grid0.coords t) y = ix2 r n := by
    funext a; match a with
    | ⟨0, _⟩ => rfl
    | ⟨1, _⟩ => rfl
  show k0_pay3 A B (win0_4.xinj (grid0.coords t) y) = k0_pay3 A' B' (win0_4.xinj (grid0.coords t) y)
  have eA : A (ix2 r n) = A' (ix2 r n) := by rw [← hxy]; exact congrFun hA y
  have eB : B (ix2 (0 : Fin 1) n) = B' (ix2 (0 : Fin 1) n) :=
    eq_of_cut_eq win0_3 (grid0.coords t) hB (ix2 (0 : Fin 1) n) ((win0_3.moved_iff _ _).mpr fun a => by
      match a with
      | ⟨0, _⟩ => show (0 : Nat) < win0_3.xsize (grid0.coords t) 0; rw [hx30]; exact Nat.one_pos
      | ⟨1, _⟩ => show n.val < win0_3.xsize (grid0.coords t) 1; rw [hx31]; exact hy1)
  rw [hxy, pay3_apply, pay3_apply, eA, eB]

/-! ## The account of the output's staging buffer -/

/-- One point's effect on the output's staging buffer: reset at the first feature block, add the block's product, add
    the bias at the last. -/
def step (c : Dev nD) (t : Fin cfg0.N) (prev : Vec Ideal S2048x2304 .f32) : Vec Ideal S2048x2304 .f32 :=
  if t.val % 16 = 15 then
    k0_pay3 (k0_pay2 (aW m c t) (aS m c t) (aX m c t) (if t.val % 16 = 0 then k0_pay1 (F := Ideal) else prev)) (aB m c t)
  else k0_pay2 (aW m c t) (aS m c t) (aX m c t) (if t.val % 16 = 0 then k0_pay1 (F := Ideal) else prev)

/-- What the output's staging buffer holds after the body at point n, by recursion on the point. -/
def accAt (c : Dev nD) : (n : ℕ) → n < cfg0.N → Vec Ideal S2048x2304 .f32
  | 0, h => step m c ⟨0, h⟩ (k0_pay1 (F := Ideal))
  | n + 1, h => step m c ⟨n + 1, h⟩ (accAt c n (Nat.lt_of_succ_lt h))

def acc (c : Dev nD) (t : Fin cfg0.N) : Vec Ideal S2048x2304 .f32 := accAt m c t.val t.isLt

theorem acc_first (c : Dev nD) (t : Fin cfg0.N) (h0 : t.val % 16 = 0) :
    acc m c t = k0_pay2 (aW m c t) (aS m c t) (aX m c t) (k0_pay1 (F := Ideal)) := by
  obtain ⟨n, hn⟩ := t
  have h15 : ¬ n % 16 = 15 := by have : n % 16 = 0 := h0; omega
  cases n with
  | zero => show step m c ⟨0, hn⟩ _ = _; unfold step; rw [if_neg h15, if_pos h0]
  | succ n => show step m c ⟨n + 1, hn⟩ _ = _; unfold step; rw [if_neg h15, if_pos h0]

theorem acc_mid (c : Dev nD) (t : Fin cfg0.N) (h0 : ¬ t.val % 16 = 0) (h15 : ¬ t.val % 16 = 15) :
    acc m c t = k0_pay2 (aW m c t) (aS m c t) (aX m c t) (acc m c ⟨t.val - 1, Nat.lt_of_le_of_lt (Nat.sub_le _ _) t.isLt⟩) := by
  obtain ⟨n, hn⟩ := t
  cases n with
  | zero => exact absurd (Nat.zero_mod 16) h0
  | succ n => show step m c ⟨n + 1, hn⟩ _ = _; unfold step; rw [if_neg h15, if_neg h0]; rfl

theorem acc_last (c : Dev nD) (t : Fin cfg0.N) (h15 : t.val % 16 = 15) :
    acc m c t = k0_pay3 (k0_pay2 (aW m c t) (aS m c t) (aX m c t) (acc m c ⟨t.val - 1, Nat.lt_of_le_of_lt (Nat.sub_le _ _) t.isLt⟩)) (aB m c t) := by
  obtain ⟨n, hn⟩ := t
  have h0 : ¬ n % 16 = 0 := by have : n % 16 = 15 := h15; omega
  cases n with
  | zero => exact absurd (show (0 : ℕ) % 16 = 15 from h15) (by decide)
  | succ n => show step m c ⟨n + 1, hn⟩ _ = _; unfold step; rw [if_pos h15, if_neg h0]; rfl

/-! ## The proof data and what the body finds in the output's buffer -/

abbrev dat (c : Dev nD) : Dat τ (Elt Ideal) Unit ℕ (UR sig nD τ) ℕ cfg0 c := mkDat m c (acc m c)

/-- At the first feature block the output's buffer is fresh: anything. -/
theorem before4_first (c : Dev nD) (t : Fin cfg0.N) (h0 : t.val % 16 = 0) (d) : (dat m c).before 4 t d = d := by
  refine Dat.before_out_reset _ 4 rfl t ?_ d
  by_cases ht : t.val = 0
  · exact .inl ht
  · exact .inr ⟨ht, (flush0_4 _).mpr (by show (t.val - 1) % 16 = 15; omega)⟩

/-- At a later feature block its part inside the array is what the point before left there. -/
theorem before4_later (c : Dev nD) (t : Fin cfg0.N) (h0 : ¬ t.val % 16 = 0) (d) :
    win0_4.cut (grid0.coords t) ((dat m c).before 4 t d)
      = win0_4.cut (grid0.coords t) (acc m c ⟨t.val - 1, Nat.lt_of_le_of_lt (Nat.sub_le _ _) t.isLt⟩) := by
  have ht : t.val ≠ 0 := fun h => h0 (by rw [h])
  rw [Dat.before_out_acc _ 4 rfl t ht
    (Bool.eq_false_iff.mpr fun h => by have := (flush0_4 _).mp h; dsimp only at this; omega) (fun _ => rfl) d]
  unfold Dat.kept
  rw [after4]
  refine cut_fill_cut win0_4 _ _ ?_ d _
  funext a
  show Pipeline.Clip.of (win0_4.index ⟨t.val - 1, Nat.lt_of_le_of_lt (Nat.sub_le _ _) t.isLt⟩ a) _ _ = Pipeline.Clip.of (win0_4.index t a) _ _
  obtain ⟨hp0, hp1⟩ := index4 ⟨t.val - 1, Nat.lt_of_le_of_lt (Nat.sub_le _ _) t.isLt⟩
  obtain ⟨hq0, hq1⟩ := index4 t
  have e0 : win0_4.index ⟨t.val - 1, Nat.lt_of_le_of_lt (Nat.sub_le _ _) t.isLt⟩ 0 = win0_4.index t 0 := by
    rw [hp0, hq0]; show (t.val - 1) / 80 = t.val / 80; omega
  have e1 : win0_4.index ⟨t.val - 1, Nat.lt_of_le_of_lt (Nat.sub_le _ _) t.isLt⟩ 1 = win0_4.index t 1 := by
    rw [hp1, hq1]; show (t.val - 1) / 16 % 5 = t.val / 16 % 5; omega
  match a with
  | ⟨0, _⟩ =>
    show Pipeline.Clip.of (win0_4.index ⟨t.val - 1, Nat.lt_of_le_of_lt (Nat.sub_le _ _) t.isLt⟩ 0) _ _ = Pipeline.Clip.of (win0_4.index t 0) _ _
    rw [e0]
  | ⟨1, _⟩ =>
    show Pipeline.Clip.of (win0_4.index ⟨t.val - 1, Nat.lt_of_le_of_lt (Nat.sub_le _ _) t.isLt⟩ 1) _ _ = Pipeline.Clip.of (win0_4.index t 1) _ _
    rw [e1]

/-! ## The body obligation -/

/-- What the body is called with at point t. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d)))

/-- What it returns: every clipped window's buffer stated on its part inside the array. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ (∃ d, owns (c : Thread nD τ) (st0_1 t) fullShare (win0_1.fill (grid0.coords t) d (win0_1.cut (grid0.coords t) ((dat m c).after 1 t))))
    ∗ (∃ d, owns (c : Thread nD τ) (st0_2 t) fullShare (win0_2.fill (grid0.coords t) d (win0_2.cut (grid0.coords t) ((dat m c).after 2 t))))
    ∗ (∃ d, owns (c : Thread nD τ) (st0_3 t) fullShare (win0_3.fill (grid0.coords t) d (win0_3.cut (grid0.coords t) ((dat m c).after 3 t))))
    ∗ (∃ d, owns (c : Thread nD τ) (st0_4 t) fullShare (win0_4.fill (grid0.coords t) d (win0_4.cut (grid0.coords t) ((dat m c).after 4 t)))))

/-- The blocks as filled by a fetch agree with the account's blocks on the parts inside the arrays. -/
theorem cutW (c : Dev nD) (t : Fin cfg0.N) (d) :
    win0_1.cut (grid0.coords t) (win0_1.fill (grid0.coords t) d (iblk m c 1 t)) = win0_1.cut (grid0.coords t) (aW m c t) := by
  rw [win0_1.cut_fill, cut_aW]
theorem cutS (c : Dev nD) (t : Fin cfg0.N) (d) :
    win0_2.cut (grid0.coords t) (win0_2.fill (grid0.coords t) d (iblk m c 2 t)) = win0_2.cut (grid0.coords t) (aS m c t) := by
  rw [win0_2.cut_fill, cut_aS]
theorem cutB (c : Dev nD) (t : Fin cfg0.N) (d) :
    win0_3.cut (grid0.coords t) (win0_3.fill (grid0.coords t) d (iblk m c 3 t)) = win0_3.cut (grid0.coords t) (aB m c t) := by
  rw [win0_3.cut_fill, cut_aB]

set_option maxHeartbeats 1600000 in
/-- The body at any point, in its three cases: the inputs come back as they were, and the output's buffer, on its part
    inside the array, holds what the account says. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dat m c).Φ t.succ = (dat m c).Φ t.castSucc from rfl,
    show (dat m c).owesAt () t.succ = (dat m c).owesAt () t.castSucc from rfl,
    after0, after1, after2, after3, after4, cut_aW, cut_aS, cut_aB]
  obtain ⟨-, -, hk⟩ := coords_val t
  by_cases h0 : t.val % 16 = 0
  · iintro ⟨HΦ, Ho, ⟨%d0, H0⟩, ⟨%d1, H1⟩, ⟨%d2, H2⟩, ⟨%d3, H3⟩, ⟨%d4, H4⟩⟩
    iapply (run_first (F := Ideal) c Set.univ (grid0.coords t) (hk.trans h0) _ _ _ _ _ _ _ _ _ _
      (iblk m c 0 t) (win0_1.fill (grid0.coords t) d1 (iblk m c 1 t)) (win0_2.fill (grid0.coords t) d2 (iblk m c 2 t))
      (win0_3.fill (grid0.coords t) d3 (iblk m c 3 t)) ((dat m c).before 4 t d4) _)
    unfold held
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexact H0
    isplitl [H1]; · iexists d1; iexact H1
    isplitl [H2]; · iexists d2; iexact H2
    isplitl [H3]; · iexists d3; iexact H3
    have hcut : win0_4.cut (grid0.coords t) (k0_pay2 (win0_1.fill (grid0.coords t) d1 (iblk m c 1 t)) (win0_2.fill (grid0.coords t) d2 (iblk m c 2 t)) (iblk m c 0 t) (k0_pay1 (F := Ideal)))
        = win0_4.cut (grid0.coords t) (acc m c t) := by
      rw [acc_first m c t h0, aX_eq]
      exact pay2_cut_congr t _ _ _ _ _ _ _ (cutW m c t d1) (cutS m c t d2) rfl
    iexists (k0_pay2 (win0_1.fill (grid0.coords t) d1 (iblk m c 1 t)) (win0_2.fill (grid0.coords t) d2 (iblk m c 2 t)) (iblk m c 0 t) (k0_pay1 (F := Ideal)))
    rw [win0_4.fill_congr_cut (grid0.coords t) hcut]
    iexact H4
  · by_cases h15 : t.val % 16 = 15
    · iintro ⟨HΦ, Ho, ⟨%d0, H0⟩, ⟨%d1, H1⟩, ⟨%d2, H2⟩, ⟨%d3, H3⟩, ⟨%d4, H4⟩⟩
      iapply (run_last (F := Ideal) c Set.univ (grid0.coords t) (hk.trans h15) _ _ _ _ _ _ _ _ _ _
        (iblk m c 0 t) (win0_1.fill (grid0.coords t) d1 (iblk m c 1 t)) (win0_2.fill (grid0.coords t) d2 (iblk m c 2 t))
        (win0_3.fill (grid0.coords t) d3 (iblk m c 3 t)) ((dat m c).before 4 t d4) _)
      unfold held
      isplitl [H0 H1 H2 H3 H4]
      · isplitl [H0]; · iexact H0
        isplitl [H1]; · iexact H1
        isplitl [H2]; · iexact H2
        isplitl [H3]; · iexact H3
        iexact H4
      iintro ⟨H0, H1, H2, H3, H4⟩
      isplitl [HΦ]; · iexact HΦ
      isplitl [Ho]; · iexact Ho
      isplitl [H0]; · iexact H0
      isplitl [H1]; · iexists d1; iexact H1
      isplitl [H2]; · iexists d2; iexact H2
      isplitl [H3]; · iexists d3; iexact H3
      have hcut : win0_4.cut (grid0.coords t) (k0_pay3 (k0_pay2 (win0_1.fill (grid0.coords t) d1 (iblk m c 1 t)) (win0_2.fill (grid0.coords t) d2 (iblk m c 2 t)) (iblk m c 0 t) ((dat m c).before 4 t d4)) (win0_3.fill (grid0.coords t) d3 (iblk m c 3 t)))
          = win0_4.cut (grid0.coords t) (acc m c t) := by
        rw [acc_last m c t h15, aX_eq]
        exact pay3_cut_congr t _ _ _ _
          (pay2_cut_congr t _ _ _ _ _ _ _ (cutW m c t d1) (cutS m c t d2) (before4_later m c t h0 d4)) (cutB m c t d3)
      iexists (k0_pay3 (k0_pay2 (win0_1.fill (grid0.coords t) d1 (iblk m c 1 t)) (win0_2.fill (grid0.coords t) d2 (iblk m c 2 t)) (iblk m c 0 t) ((dat m c).before 4 t d4)) (win0_3.fill (grid0.coords t) d3 (iblk m c 3 t)))
      rw [win0_4.fill_congr_cut (grid0.coords t) hcut]
      iexact H4
    · iintro ⟨HΦ, Ho, ⟨%d0, H0⟩, ⟨%d1, H1⟩, ⟨%d2, H2⟩, ⟨%d3, H3⟩, ⟨%d4, H4⟩⟩
      iapply (run_mid (F := Ideal) c Set.univ (grid0.coords t) (fun h => h0 (hk.symm.trans h)) (fun h => h15 (hk.symm.trans h)) _ _ _ _ _ _ _ _ _ _
        (iblk m c 0 t) (win0_1.fill (grid0.coords t) d1 (iblk m c 1 t)) (win0_2.fill (grid0.coords t) d2 (iblk m c 2 t))
        (win0_3.fill (grid0.coords t) d3 (iblk m c 3 t)) ((dat m c).before 4 t d4) _)
      unfold held
      isplitl [H0 H1 H2 H3 H4]
      · isplitl [H0]; · iexact H0
        isplitl [H1]; · iexact H1
        isplitl [H2]; · iexact H2
        isplitl [H3]; · iexact H3
        iexact H4
      iintro ⟨H0, H1, H2, H3, H4⟩
      isplitl [HΦ]; · iexact HΦ
      isplitl [Ho]; · iexact Ho
      isplitl [H0]; · iexact H0
      isplitl [H1]; · iexists d1; iexact H1
      isplitl [H2]; · iexists d2; iexact H2
      isplitl [H3]; · iexists d3; iexact H3
      have hcut : win0_4.cut (grid0.coords t) (k0_pay2 (win0_1.fill (grid0.coords t) d1 (iblk m c 1 t)) (win0_2.fill (grid0.coords t) d2 (iblk m c 2 t)) (iblk m c 0 t) ((dat m c).before 4 t d4))
          = win0_4.cut (grid0.coords t) (acc m c t) := by
        rw [acc_mid m c t h0 h15, aX_eq]
        exact pay2_cut_congr t _ _ _ _ _ _ _ (cutW m c t d1) (cutS m c t d2) (before4_later m c t h0 d4)
      iexists (k0_pay2 (win0_1.fill (grid0.coords t) d1 (iblk m c 1 t)) (win0_2.fill (grid0.coords t) d2 (iblk m c 2 t)) (iblk m c 0 t) ((dat m c).before 4 t d4))
      rw [win0_4.fill_congr_cut (grid0.coords t) hcut]
      iexact H4

/-- The library's body obligation. -/
theorem body_obligation (c : Dev nD) :
    BodyObligationLoose (dat m c) (defs₀ (F := Ideal)) Variants.none () Set.univ := fun t => by
  rw [bigSep_W0, bigSep_W0]
  exact sound_body m c t

set_option backward.isDefEq.respectTransparency.types false in
/-- From any memory with zero counters every weakly fair execution of the program terminates; in every final state the
    pipeline's arrays hold what the write-backs of the account leave, and every other buffer what the host lines after
    the region make of that. -/
theorem run_main : θ_run defs (onTc (τ := τ) (main (F := Ideal))) (s₀ m ρ)
    (Pipeline.FramePost cfgs (fun _ c => dat m c) 0 (Pipeline.afterTail₀ cfgs (fun _ c => dat m c) 0 (V0 m) [hostOps1])) :=
  Pipeline.θ_run_frame_around cfgs (fun _ c => dat m c) (0 : Fin 1) launch0 defs₀ Variants.none m ρ main
    (hbody := body_obligation m)
    (hshare := fun c => (dat m c).share_full fun _ => rfl) (howed := fun _ _ => rfl)
    (V₀ := V0 m) (opss := [hostOps1]) (hsub := sfx_sub) (hfresh := sfx_fresh) (hkeep := sfx_keeps)
    (hmain := hmain m Variants.none) (hA := fun c w => A_eq m c (acc m c) w) (hΦ := fun _ _ => rfl)

end Cert.KernelIdeal.Acc

end
-- ==== Proof.Spec.lean ====
/-
  The mathematics of the certificate, with no program in sight.

  One output entry of the scaled linear layer is a sum over the 4096 input features,
      out (r, n) = (∑ k, x (r, k) · (w (n, k) · s (n))) + b (n),
  where r ranges over the 8192 flattened (batch, position) rows and n over the 11008 output channels.  The kernel
  forms the sum sixteen features-blocks of 256 at a time, starting from zero, and adds the bias after the last block;
  the reference forms it at once.  On the extended reals addition is commutative and associative (nothing else is
  used: no product is distributed over a sum), so a sum over the first 256·(q+1) features is the sum over the first
  256·q plus the block's own sum, and the sum over all sixteen blocks is the whole sum.
-/
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- The flattened input [8192, 4096], the weight [11008, 4096], its per-channel scale [11008, 1], the bias [1, 11008]
    and the flat result [8192, 11008], as index types. -/
abbrev IX : Type := (⟨2, ![8192, 4096]⟩ : Shape).Idx
abbrev IW : Type := (⟨2, ![11008, 4096]⟩ : Shape).Idx
abbrev IS : Type := (⟨2, ![11008, 1]⟩ : Shape).Idx
abbrev IB : Type := (⟨2, ![1, 11008]⟩ : Shape).Idx

variable (x : IX → EReal) (w : IW → EReal) (s : IS → EReal) (b : IB → EReal)

/-- The product that input feature k contributes to entry (r, n): x (r, k) · (w (n, k) · s (n)); zero past the
    last feature, so that sums over ranges of naturals can be written without side conditions. -/
def term (r : Fin 8192) (n : Fin 11008) (k : ℕ) : EReal :=
  if h : k < 4096 then x (ix2 r ⟨k, h⟩) * (w (ix2 n ⟨k, h⟩) * s (ix2 n (0 : Fin 1))) else 0

theorem term_of_lt (r : Fin 8192) (n : Fin 11008) {k : ℕ} (h : k < 4096) :
    term x w s r n k = x (ix2 r ⟨k, h⟩) * (w (ix2 n ⟨k, h⟩) * s (ix2 n (0 : Fin 1))) := dif_pos h

/-- The sum of the contributions of the first 256·q features. -/
def partialSum (r : Fin 8192) (n : Fin 11008) (q : ℕ) : EReal := ∑ k ∈ Finset.range (256 * q), term x w s r n k

theorem partialSum_zero (r : Fin 8192) (n : Fin 11008) : partialSum x w s r n 0 = 0 := by
  unfold partialSum; rw [Nat.mul_zero, Finset.range_zero, Finset.sum_empty]

/-- One more block of 256 features: the partial sum grows by that block's own sum. -/
theorem partialSum_succ (r : Fin 8192) (n : Fin 11008) (q : ℕ) :
    partialSum x w s r n (q + 1) = partialSum x w s r n q + ∑ k' : Fin 256, term x w s r n (256 * q + k'.val) := by
  unfold partialSum
  rw [Nat.mul_succ, Finset.sum_range_add, Fin.sum_univ_eq_sum_range (fun k' => term x w s r n (256 * q + k')) 256]

/-- All sixteen blocks: the whole sum over the features. -/
theorem partialSum_sixteen (r : Fin 8192) (n : Fin 11008) :
    partialSum x w s r n 16 = ∑ k : Fin 4096, x (ix2 r k) * (w (ix2 n k) * s (ix2 n (0 : Fin 1))) := by
  unfold partialSum
  rw [show 256 * 16 = 4096 from rfl, ← Fin.sum_univ_eq_sum_range (fun k => term x w s r n k) 4096]
  exact Finset.sum_congr rfl fun k _ => term_of_lt x w s r n k.isLt

/-- The entry (r, n) of the flat result. -/
def out2 (r : Fin 8192) (n : Fin 11008) : EReal := partialSum x w s r n 16 + b (ix2 (0 : Fin 1) n)

theorem out2_eq (r : Fin 8192) (n : Fin 11008) :
    out2 x w s b r n = (∑ k : Fin 4096, x (ix2 r k) * (w (ix2 n k) * s (ix2 n (0 : Fin 1)))) + b (ix2 (0 : Fin 1) n) := by
  unfold out2; rw [partialSum_sixteen]

end Cert.Spec

end
-- ==== Proof.ValueI.lean ====
/-
  The kernel's result, entry by entry (extended reals).

  After feature block k of the pair (row tile i, column tile j) the output's staging buffer holds, at every entry
  (r, n) whose channel 2304 j + n exists, the sum of the contributions of the first 256·(k+1) features to entry
  (2048 i + r, 2304 j + n) of the flat result; after the last block, with the bias added, the entry itself.  The
  write-backs at the last blocks cover the flat [8192, 11008] result, and the host's reshape unflattens its rows.
-/
import proofs.«169078_j8504035246563_1_alg».proof.Proof.AccI
import proofs.«169078_j8504035246563_1_alg».proof.Proof.Spec
import Idealize.ShloMosaic.Lib.StableHlo.Run

set_option maxRecDepth 16384

noncomputable section

open scoped BigOperators

namespace Cert.KernelIdeal.Value

open Cert.KernelIdeal Cert.KernelIdeal.Gen Cert.KernelIdeal.Sched Cert.KernelIdeal.Blocks Cert.KernelIdeal.Pay Cert.KernelIdeal.Acc
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem ix2_congr {n0 n1 : Nat} {a a' : Fin n0} {b b' : Fin n1} (ha : a = a') (hb : b = b') : ix2 a b = ix2 a' b' := by
  subst ha; subst hb; rfl

/-- One feature's product at a point of feature block kk, read off the blocks, is that feature's contribution to the
    flat entry. -/
theorem block_term (c : Dev nD) (t : Fin cfg0.N) (kk : ℕ) (hkk : t.val % 16 = kk) (r : Fin 2048) (n : Fin 2304) (R : Fin 8192) (C : Fin 11008)
    (hR : R.val = t.val / 80 * 2048 + r.val) (hC : C.val = t.val / 16 % 5 * 2304 + n.val) (k : Fin 256) :
    (aX m c t (ix2 r k) * (aW m c t (ix2 n k) * aS m c t (ix2 n (0 : Fin 1))) : EReal)
      = Cert.Spec.term (arrX m c) (arrW m c) (arrS m c) R C (256 * kk + k.val) := by
  have hC' : t.val / 16 % 5 * 2304 + n.val < 11008 := by have := C.isLt; omega
  have hk : 256 * kk + k.val < 4096 := by have := k.isLt; omega
  rw [aW_of_lt m c t (ix2 n k) hC', aS_of_lt m c t (ix2 n (0 : Fin 1)) hC', Cert.Spec.term_of_lt _ _ _ R C hk]
  unfold aX
  refine congrArg₂ (fun a b : EReal => a * b) (congrArg (arrX m c) (ix2_congr (Fin.ext ?_) (Fin.ext ?_)))
    (congrArg₂ (fun a b : EReal => a * b) (congrArg (arrW m c) (ix2_congr (Fin.ext ?_) (Fin.ext ?_)))
      (congrArg (arrS m c) (ix2_congr (Fin.ext ?_) rfl)))
  · show t.val / 80 * 2048 + r.val = R.val; omega
  · show t.val % 16 * 256 + k.val = 256 * kk + k.val; omega
  · show t.val / 16 % 5 * 2304 + n.val = C.val; omega
  · show t.val % 16 * 256 + k.val = 256 * kk + k.val; omega
  · show t.val / 16 % 5 * 2304 + n.val = C.val; omega

/-- The sum of a point's 256 products is the block's part of the specification's sum. -/
theorem block_sum (c : Dev nD) (t : Fin cfg0.N) (kk : ℕ) (hkk : t.val % 16 = kk) (r : Fin 2048) (n : Fin 2304) (R : Fin 8192) (C : Fin 11008)
    (hR : R.val = t.val / 80 * 2048 + r.val) (hC : C.val = t.val / 16 % 5 * 2304 + n.val) :
    (∑ k : Fin 256, aX m c t (ix2 r k) * (aW m c t (ix2 n k) * aS m c t (ix2 n (0 : Fin 1))) : EReal)
      = ∑ k : Fin 256, Cert.Spec.term (arrX m c) (arrW m c) (arrS m c) R C (256 * kk + k.val) :=
  Finset.sum_congr rfl fun k _ => block_term m c t kk hkk r n R C hR hC k

/-- THE INVARIANT, before the last feature block: after feature block kk the buffer's entries inside the array are
    the sums over the first 256·(kk+1) features. -/
theorem acc_partial (c : Dev nD) : ∀ (n : ℕ) (hn : n < cfg0.N) (kk : ℕ), n % 16 = kk → kk ≠ 15 →
    ∀ (r : Fin 2048) (q : Fin 2304) (R : Fin 8192) (C : Fin 11008),
      R.val = n / 80 * 2048 + r.val → C.val = n / 16 % 5 * 2304 + q.val →
      (acc m c ⟨n, hn⟩ (ix2 r q) : EReal) = Cert.Spec.partialSum (arrX m c) (arrW m c) (arrS m c) R C (kk + 1) := by
  intro n
  induction n with
  | zero =>
    intro hn kk hkk h15 r q R C hR hC
    have hk0 : kk = 0 := by omega
    subst hk0
    rw [acc_first m c ⟨0, hn⟩ (Nat.zero_mod 16), pay2_apply, pay1_apply, zero_add,
      block_sum m c ⟨0, hn⟩ 0 (Nat.zero_mod 16) r q R C hR hC, Cert.Spec.partialSum_succ, Cert.Spec.partialSum_zero, zero_add]
  | succ n ih =>
    intro hn kk hkk h15 r q R C hR hC
    by_cases h0 : (n + 1) % 16 = 0
    · have hk0 : kk = 0 := by omega
      subst hk0
      rw [acc_first m c ⟨n + 1, hn⟩ h0, pay2_apply, pay1_apply, zero_add,
        block_sum m c ⟨n + 1, hn⟩ 0 h0 r q R C hR hC, Cert.Spec.partialSum_succ, Cert.Spec.partialSum_zero, zero_add]
    · have hprev := ih (Nat.lt_of_succ_lt hn) (kk - 1) (by omega) (by omega) r q R C (by omega) (by omega)
      have hacc : (acc m c ⟨n + 1, hn⟩ (ix2 r q) : EReal)
          = acc m c ⟨n, Nat.lt_of_succ_lt hn⟩ (ix2 r q)
            + ∑ k : Fin 256, aX m c ⟨n + 1, hn⟩ (ix2 r k) * (aW m c ⟨n + 1, hn⟩ (ix2 q k) * aS m c ⟨n + 1, hn⟩ (ix2 q (0 : Fin 1))) := by
        rw [acc_mid m c ⟨n + 1, hn⟩ h0 (by show ¬ (n + 1) % 16 = 15; omega), pay2_apply]
        rfl
      rw [hacc, hprev, block_sum m c ⟨n + 1, hn⟩ kk hkk r q R C hR hC,
        show kk + 1 = (kk - 1 + 1) + 1 from by omega, Cert.Spec.partialSum_succ _ _ _ R C (kk - 1 + 1),
        show kk - 1 + 1 = kk from by omega]

/-- After the last feature block: the entry of the flat result. -/
theorem acc_final (c : Dev nD) (t : Fin cfg0.N) (h15 : t.val % 16 = 15) (r : Fin 2048) (q : Fin 2304) (R : Fin 8192) (C : Fin 11008)
    (hR : R.val = t.val / 80 * 2048 + r.val) (hC : C.val = t.val / 16 % 5 * 2304 + q.val) :
    (acc m c t (ix2 r q) : EReal) = Cert.Spec.out2 (arrX m c) (arrW m c) (arrS m c) (arrB m c) R C := by
  have hC' : t.val / 16 % 5 * 2304 + q.val < 11008 := by have := C.isLt; omega
  have ht0 : t.val ≠ 0 := fun h => by rw [h] at h15; exact absurd h15 (by decide)
  have hprev := acc_partial m c (t.val - 1) (Nat.lt_of_le_of_lt (Nat.sub_le _ _) t.isLt) 14 (by omega) (by decide) r q R C (by omega) (by omega)
  have hacc : (acc m c t (ix2 r q) : EReal)
      = (acc m c ⟨t.val - 1, Nat.lt_of_le_of_lt (Nat.sub_le _ _) t.isLt⟩ (ix2 r q)
          + ∑ k : Fin 256, aX m c t (ix2 r k) * (aW m c t (ix2 q k) * aS m c t (ix2 q (0 : Fin 1))))
        + aB m c t (ix2 (0 : Fin 1) q) := by
    rw [acc_last m c t h15, pay3_apply, pay2_apply]
  rw [hacc, hprev, block_sum m c t 15 h15 r q R C hR hC, show (14 : ℕ) + 1 = 15 from rfl,
    ← Cert.Spec.partialSum_succ _ _ _ R C 15, show (15 : ℕ) + 1 = 16 from rfl, aB_of_lt m c t (ix2 (0 : Fin 1) q) hC']
  unfold Cert.Spec.out2
  exact congrArg (fun b : EReal => Cert.Spec.partialSum (arrX m c) (arrW m c) (arrS m c) R C 16 + b) (congrArg (arrB m c)
    (ix2_congr rfl (Fin.ext (by show t.val / 16 % 5 * 2304 + q.val = C.val; omega))))

/-! ## The flat result array -/

/-- The flat result the specification names, as contents of the [8192, 11008] buffer. -/
def flat (c : Dev nD) : S8192x11008.Idx → Elt Ideal .f32 := fun e =>
  Cert.Spec.out2 (arrX m c) (arrW m c) (arrS m c) (arrB m c) ⟨(e 0).val, idx2_lt0 e⟩ ⟨(e 1).val, idx2_lt1 e⟩

/-- Each write-back writes its block of the flat result. -/
theorem flushed_eq (c : Dev nD) (t : Fin cfg0.N) (hf : (cfg0.win 4).flush t = true) :
    (dat m c).flushed 4 t = ((cfg0.win 4).blk t).view.read (Elt Ideal) (flat m c) := by
  have h15 : t.val % 16 = 15 := (flush0_4 t).mp hf
  obtain ⟨hi0, hi1⟩ := index4 t
  obtain ⟨hx40, hx41⟩ := xsize4 t
  funext y
  have hy0 : (y 0).val < win0_4.xsize (grid0.coords t) 0 := (y 0).isLt
  have hy1 : (y 1).val < win0_4.xsize (grid0.coords t) 1 := (y 1).isLt
  rw [hx40] at hy0
  rw [hx41] at hy1
  have hnc : ncols t ≤ 2304 := by unfold ncols; split <;> omega
  have hle := ncols_le t
  let r : Fin 2048 := ⟨(y 0).val, hy0⟩
  let q : Fin 2304 := ⟨(y 1).val, lt_of_lt_of_le hy1 hnc⟩
  have hxy : win0_4.xinj (grid0.coords t) y = ix2 r q := by
    funext a; match a with
    | ⟨0, _⟩ => rfl
    | ⟨1, _⟩ => rfl
  show win0_4.cut (grid0.coords t) ((dat m c).after 4 t) y = _
  rw [after4, View.read_apply]
  show acc m c t (win0_4.xinj (grid0.coords t) y) = flat m c (((cfg0.win 4).blk t).view.emb y)
  rw [hxy]
  unfold flat
  refine acc_final m c t h15 r q _ _ ?_ ?_
  · show win0_4.index t 0 * 2048 + 1 * (y 0).val = t.val / 80 * 2048 + (y 0).val
    rw [hi0]; omega
  · show win0_4.index t 1 * 2304 + 1 * (y 1).val = t.val / 16 % 5 * 2304 + (y 1).val
    rw [hi1]; omega

/-- The write-backs cover the flat result: entry (R, C) is written at the last feature block of row tile R / 2048 and
    column tile C / 2304. -/
theorem covered (i : S8192x11008.Idx) : ∃ t : Fin cfg0.N, (cfg0.win 4).flush t = true ∧ i ∈ ((cfg0.win 4).blk t).view.set := by
  have h0 : (i 0).val < 8192 := idx2_lt0 i
  have h1 : (i 1).val < 11008 := idx2_lt1 i
  have hN : ((i 0).val / 2048 * 5 + (i 1).val / 2304) * 16 + 15 < cfg0.N := by
    rw [show cfg0.N = 320 from N_0]; omega
  refine ⟨⟨((i 0).val / 2048 * 5 + (i 1).val / 2304) * 16 + 15, hN⟩, (flush0_4 _).mpr (by show (((i 0).val / 2048 * 5 + (i 1).val / 2304) * 16 + 15) % 16 = 15; omega), ?_⟩
  generalize ht : (⟨((i 0).val / 2048 * 5 + (i 1).val / 2304) * 16 + 15, hN⟩ : Fin cfg0.N) = t
  have hv : t.val = ((i 0).val / 2048 * 5 + (i 1).val / 2304) * 16 + 15 := by rw [← ht]
  obtain ⟨hi0, hi1⟩ := index4 t
  obtain ⟨hx40, hx41⟩ := xsize4 t
  have hreach := ncols_reach t
  have hle := ncols_le t
  show i ∈ ((View.whole main_v1).slice (win0_4.rect t)).set
  rw [View.set_slice_whole, Rect.mem_set_unit]
  intro a
  match a with
  | ⟨0, _⟩ =>
    show win0_4.index t 0 * 2048 ≤ (i 0).val ∧ (i 0).val < win0_4.index t 0 * 2048 + win0_4.xsize (grid0.coords t) 0
    rw [hi0, hx40]; omega
  | ⟨1, _⟩ =>
    show win0_4.index t 1 * 2304 ≤ (i 1).val ∧ (i 1).val < win0_4.index t 1 * 2304 + win0_4.xsize (grid0.coords t) 1
    rw [hi1, hx41]
    rcases hreach with hfull | hend <;> omega

/-- So the flat result buffer ends holding the flat result. -/
theorem final_flat (c : Dev nD) : (dat m c).arrAt 4 cfg0.N = flat m c :=
  (dat m c).arrAt_eq_of_cover 4 (flat m c) (flushed_eq m c) covered

/-! ## The host lines around the region -/

/-- The flattened input the region finds is the host's reshape of the first argument. -/
theorem arrX_eq (c : Dev nD) :
    arrX m c = shapeCast S8192x4096 (m ((c : Thread nD τ).loc main_arg0)) shapeCasts_S4x2048x4096_S8192x4096 := by
  show StableHlo.after hostOps0 (fun b => m (c, b)) (Proc.devRef .tc main_v0) = _
  after_results
  rfl

/-- The program's result: the flat result with its rows unflattened. -/
theorem result_eq (c : Dev nD) :
    Pipeline.afterTail₀ cfgs (fun _ c => dat m c) 0 (V0 m) [hostOps1] c main_v2
      = shapeCast S4x2048x11008 (flat m c) shapeCasts_S8192x11008_S4x2048x11008 := by
  unfold Pipeline.afterTail₀
  show StableHlo.after hostOps1 _ (Proc.devRef .tc main_v2) = _
  after_results
  rw [Pipeline.withArrays_arr spec0 launch0.win.arr_inj c _ _ 4, final_flat]
  rfl

/-- Entry (p, q, n) of the result is entry (2048 p + q, n) of the flat result. -/
theorem result_apply (c : Dev nD) (p : Fin 4) (q : Fin 2048) (n : Fin 11008) :
    (shapeCast S4x2048x11008 (flat m c) shapeCasts_S8192x11008_S4x2048x11008 (ix3 p q n) : EReal)
      = Cert.Spec.out2 (arrX m c) (arrW m c) (arrS m c) (arrB m c)
          ⟨2048 * p.val + q.val, by have := p.isLt; have := q.isLt; omega⟩ n := by
  have hrow : 2048 * p.val + q.val < 8192 := by have := p.isLt; have := q.isLt; omega
  rw [shapeCast_apply (flat m c) shapeCasts_S8192x11008_S4x2048x11008 (ix3 p q n) (ix2 ⟨2048 * p.val + q.val, hrow⟩ n)
    (by rw [Shape.rowMajor_val_two, Shape.rowMajor_val_three]
        show (2048 * p.val + q.val) * 11008 + n.val = (p.val * 2048 + q.val) * 11008 + n.val
        omega)]
  rfl

/-- The run, read: the result holds the specification's values and the arguments are unchanged. -/
theorem run : θ_run defs (onTc (τ := τ) (main (F := Ideal))) ⟨m, fun _ => 0, ρ⟩ fun r => ∀ c : Dev nD,
      r.2.mem ((c.tc : Thread nD τ).loc main_v2) = shapeCast S4x2048x11008 (flat m c) shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (fun _ c => dat m c) c),
     ((h c).1 1).trans (((dat m c).arrAt_in 1 rfl _).trans ((A_eq m c (acc m c) 1).trans (V_main_arg1 m c))),
     ((h c).1 2).trans (((dat m c).arrAt_in 2 rfl _).trans ((A_eq m c (acc m c) 2).trans (V_main_arg2 m c))),
     ((h c).1 3).trans (((dat m c).arrAt_in 3 rfl _).trans ((A_eq m c (acc m c) 3).trans (V_main_arg3 m c)))⟩)
    (run_main m ρ)

end Cert.KernelIdeal.Value

end
-- ==== Proof.RefValue.lean ====
/-
  The reference's result, entry by entry.

  The reference flattens x to [8192, 4096], scales the weight row-wise, transposes it, contracts the 4096 features
  in one product, unflattens the rows to (batch, position) and adds the bias row.  Read at entry (p, q, n) that is
      (∑ k, x₂ (2048 p + q, k) · (w (n, k) · s (n))) + b (n)
  with x₂ the flattened input: the flat result of the specification at row 2048 p + q.
-/
import proofs.«169078_j8504035246563_1_alg».proof.Proof.Gen.ReferenceIdeal.Read
import proofs.«169078_j8504035246563_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The flat row of (batch p, position q). -/
abbrev row (p : Fin 4) (q : Fin 2048) : Fin 8192 := ⟨2048 * p.val + q.val, by have := p.isLt; have := q.isLt; omega⟩

/-- Unflattening the rows: entry (p, q, n) of the result is entry (2048 p + q, n) of the flat product. -/
theorem flat_index (p : Fin 4) (q : Fin 2048) (n : Fin 11008) : idx_main_v5 (ix3 p q n) = ix2 (row p q) n := by
  funext a
  match a with
  | ⟨0, _⟩ =>
    exact Fin.ext (by
      show ((p.val * 2048 + q.val) * 11008 + n.val) / 11008 = 2048 * p.val + q.val
      have := n.isLt; omega)
  | ⟨1, _⟩ =>
    exact Fin.ext (by
      show ((p.val * 2048 + q.val) * 11008 + n.val) % 11008 = n.val
      have := n.isLt; omega)

/-- The scaled, transposed weight at (k, n) is w (n, k) · s (n). -/
theorem scaled_weight (x1 : (⟨S11008x4096, .f32⟩ : BufTy).Contents (Elt Ideal)) (x2 : (⟨S11008x1, .f32⟩ : BufTy).Contents (Elt Ideal))
    (r : Fin 8192) (n : Fin 11008) (k : Fin 4096) :
    val_main_v3 (F := Ideal) x1 x2 (ridx_main_v4 (ix2 r n) k) = (x1 (ix2 n k) * x2 (ix2 n (0 : Fin 1)) : EReal) := by
  rw [val_main_v3_apply, val_main_v2_apply, val_main_v1_apply]
  have e1 : idx_main_v3 (ridx_main_v4 (ix2 r n) k) = ix2 n k := by
    funext a; match a with
    | ⟨0, _⟩ => rfl
    | ⟨1, _⟩ => rfl
  have e2 : idx_main_v1 (ix2 n k) = ix2 n (0 : Fin 1) := by
    funext a; match a with
    | ⟨0, _⟩ => rfl
    | ⟨1, _⟩ => rfl
  rw [e1, e2]
  rfl

/-- The reference's result at entry (p, q, n) is the specification's flat result at row 2048 p + q, column n, of the
    flattened input. -/
theorem ref_apply (x0 : (⟨S4x2048x4096, .f32⟩ : BufTy).Contents (Elt Ideal)) (x1 : (⟨S11008x4096, .f32⟩ : BufTy).Contents (Elt Ideal))
    (x2 : (⟨S11008x1, .f32⟩ : BufTy).Contents (Elt Ideal)) (x3 : (⟨S1x11008, .f32⟩ : BufTy).Contents (Elt Ideal))
    (p : Fin 4) (q : Fin 2048) (n : Fin 11008) :
    val_main_v8 (F := Ideal) x0 x1 x2 x3 (ix3 p q n)
      = Cert.Spec.out2 (val_main_v0 (F := Ideal) x0) x1 x2 x3 (row p q) n := by
  rw [Cert.Spec.out2_eq, val_main_v8_apply, val_main_v5_apply, val_main_v4_apply, val_main_v7_apply, val_main_v6_apply,
    flat_index]
  have eb : idx_main_v6 (idx_main_v7 (ix3 p q n)) = ix2 (0 : Fin 1) n := by
    funext a; match a with
    | ⟨0, _⟩ => rfl
    | ⟨1, _⟩ => rfl
  rw [eb]
  have el : ∀ k : Fin 4096, lidx_main_v4 (ix2 (row p q) n) k = ix2 (row p q) k := fun k => by
    funext a; match a with
    | ⟨0, _⟩ => rfl
    | ⟨1, _⟩ => rfl
  show (∑ k : Fin 4096, val_main_v0 (F := Ideal) x0 (lidx_main_v4 (ix2 (row p q) n) k)
      * val_main_v3 (F := Ideal) x1 x2 (ridx_main_v4 (ix2 (row p q) n) k) : EReal) + x3 (ix2 (0 : Fin 1) n) = _
  refine congrArg (· + (x3 (ix2 (0 : Fin 1) n) : EReal)) (Finset.sum_congr rfl fun k _ => ?_)
  rw [el k, scaled_weight]

end Cert.ReferenceIdeal.RefValue

end
-- ==== Proof.lean ====
/-
  The certificate: a linear layer whose weight is rescaled per output channel, out = x · (w ∘ s)ᵀ + b, computed by a
  kernel that walks the 4096 features in sixteen blocks of 256 and accumulates in place, against the one-shot
  reference.

  Both programs compute, at every entry, the same products x (r, k) · (w (n, k) · s (n)); the kernel adds them block by
  block from zero and the bias after the last block, the reference all at once and then the bias.  Addition of extended
  reals is commutative and associative, and nothing else is used, so the two results are equal whatever the inputs
  hold (the finiteness precondition is not needed).  The output's column tiles do not divide the 11008 channels: the
  fifth tile's blocks overhang the arrays, and everything is stated on the parts inside them.
  The three frames: the reference's is its run; the idealized kernel's is its value run; the word-level kernel's is
  proved with the output window's contents left unnamed.  The idealization rewrote nothing, so preserves is trivial.
-/
import proofs.«169078_j8504035246563_1_alg».proof.Defs
import proofs.«169078_j8504035246563_1_alg».proof.Proof.Gen.Kernel
import proofs.«169078_j8504035246563_1_alg».proof.Proof.Gen.KernelIdeal
import proofs.«169078_j8504035246563_1_alg».proof.Proof.Gen.ReferenceIdeal
import proofs.«169078_j8504035246563_1_alg».proof.Proof.Gen.Pre_finite_inputs
import proofs.«169078_j8504035246563_1_alg».proof.Proof.Gen.ReferenceIdeal.Run
import proofs.«169078_j8504035246563_1_alg».proof.Proof.ForgetK
import proofs.«169078_j8504035246563_1_alg».proof.Proof.ValueI
import proofs.«169078_j8504035246563_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Forget.frame (F := Bits) m ρ

theorem frame_ki : Cert.frame_KernelIdeal := fun m ρ _ =>
  (θ_run Cert.KernelIdeal.defs _ _).mono (fun _ h c => (h c).2) (Cert.KernelIdeal.Value.run m ρ)

theorem frame_ri : Cert.frame_ReferenceIdeal := fun m ρ _ =>
  (θ_run Cert.ReferenceIdeal.defs _ _).mono (fun _ h c => (h c).2) (Cert.ReferenceIdeal.Value.run (F := Ideal) m ρ)

/-- Both results are the specification's flat result with its rows unflattened, of arguments that agree. -/
theorem algebraic : Cert.algebraic_KernelIdeal_ReferenceIdeal := by
  intro m ρ m' ρ' _ hagree
  refine ⟨fun c => shapeCast Cert.KernelIdeal.S4x2048x11008 (Cert.KernelIdeal.Value.flat m c) Cert.KernelIdeal.Facts₀.shapeCasts_S8192x11008_S4x2048x11008,
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v8_eq]
  funext i
  obtain ⟨p, q, n, rfl⟩ : ∃ (p : Fin 4) (q : Fin 2048) (n : Fin 11008), i = ix3 p q n := ⟨i 0, i 1, i 2, eq_ix3 i⟩
  rw [Cert.ReferenceIdeal.RefValue.ref_apply]
  refine Eq.trans ?_ (Cert.KernelIdeal.Value.result_apply m c p q n).symm
  rw [Cert.KernelIdeal.Value.arrX_eq m c,
    show Cert.KernelIdeal.Blocks.arrW m c = m ((c : Thread Cert.KernelIdeal.nD Cert.KernelIdeal.τ).loc Cert.KernelIdeal.main_arg1) from Cert.KernelIdeal.Gen.V_main_arg1 m c,
    show Cert.KernelIdeal.Blocks.arrS m c = m ((c : Thread Cert.KernelIdeal.nD Cert.KernelIdeal.τ).loc Cert.KernelIdeal.main_arg2) from Cert.KernelIdeal.Gen.V_main_arg2 m c,
    show Cert.KernelIdeal.Blocks.arrB m c = m ((c : Thread Cert.KernelIdeal.nD Cert.KernelIdeal.τ).loc Cert.KernelIdeal.main_arg3) from Cert.KernelIdeal.Gen.V_main_arg3 m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
